-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x64x64 : Shape := ⟨3, ![3, 64, 64]⟩
abbrev S_ : Shape := ⟨0, ![]⟩

class Facts : Prop where
  bcast_S_S3x64x64 : S_.BroadcastsInDim S3x64x64 (![] : Fin 0 → Fin S3x64x64.rank)
  reducesTo_S3x64x64_S_d0_1_2 : S3x64x64.ReducesTo [0, 1, 2] S_
  h_S_ : 0 < S_.numel

variable [Facts]

def fn {F : FTy → Type} [FloatOps F] (main_arg0 : FVec F S3x64x64 .f32) : IVec S_ 1 :=
  let main_v0 : FVec F S3x64x64 .f32 := Host.absf main_arg0
  let main_cst : FVec F S_ .f32 := constant S_ .f32 0x7F800000#32
  let main_v1 : FVec F S3x64x64 .f32 := broadcastInDim S3x64x64 ![] bcast_S_S3x64x64 main_cst
  let main_v2 : IVec S3x64x64 1 := cmpf .olt main_v0 main_v1
  let main_c : IVec S_ 1 := constantI S_ 1 1#1
  let main_v3 : IVec S_ 1 := (fun x v => Host.reduce IntOp.andi x v reducesTo_S3x64x64_S_d0_1_2 h_S_) main_v2 main_c
  main_v3
-- ==== Kernel.lean ====
abbrev S3x64x64 : Shape := ⟨3, ![3, 64, 64]⟩
abbrev S_ : Shape := ⟨0, ![]⟩
abbrev S12288 : Shape := ⟨1, ![12288]⟩
abbrev S1x12288 : Shape := ⟨2, ![1, 12288]⟩
abbrev S12416x12288 : Shape := ⟨2, ![12416, 12288]⟩
abbrev S128x12288 : Shape := ⟨2, ![128, 12288]⟩
abbrev S12289x12288 : Shape := ⟨2, ![12289, 12288]⟩
abbrev S12289x3x64x64 : Shape := ⟨4, ![12289, 3, 64, 64]⟩

abbrev nBuf : Space → Nat
  | .hbm => 44
  | .vmem => 5
  | .smem => 0
  | _ => 0

abbrev bufTy : (tb : Table) → Fin (tcTables nBuf tb) → BufTy
  | .hbm, ⟨0, _⟩ => ⟨S3x64x64, .f32⟩
  | .hbm, ⟨1, _⟩ => ⟨S_, .f32⟩
  | .hbm, ⟨2, _⟩ => ⟨S3x64x64, .f32⟩
  | .hbm, ⟨3, _⟩ => ⟨S3x64x64, .f32⟩
  | .hbm, ⟨4, _⟩ => ⟨S_, .f32⟩
  | .hbm, ⟨5, _⟩ => ⟨S3x64x64, .f32⟩
  | .hbm, ⟨6, _⟩ => ⟨S3x64x64, .f32⟩
  | .hbm, ⟨7, _⟩ => ⟨S_, .f32⟩
  | .hbm, ⟨8, _⟩ => ⟨S3x64x64, .f32⟩
  | .hbm, ⟨9, _⟩ => ⟨S3x64x64, .f32⟩
  | .hbm, ⟨10, _⟩ => ⟨S_, .f32⟩
  | .hbm, ⟨11, _⟩ => ⟨S3x64x64, .f32⟩
  | .hbm, ⟨12, _⟩ => ⟨S3x64x64, .f32⟩
  | .hbm, ⟨13, _⟩ => ⟨S_, .f32⟩
  | .hbm, ⟨14, _⟩ => ⟨S3x64x64, .f32⟩
  | .hbm, ⟨15, _⟩ => ⟨S3x64x64, .f32⟩
  | .hbm, ⟨16, _⟩ => ⟨S_, .f32⟩
  | .hbm, ⟨17, _⟩ => ⟨S3x64x64, .f32⟩
  | .hbm, ⟨18, _⟩ => ⟨S3x64x64, .f32⟩
  | .hbm, ⟨19, _⟩ => ⟨S3x64x64, .f32⟩
  | .hbm, ⟨20, _⟩ => ⟨S3x64x64, .f32⟩
  | .hbm, ⟨21, _⟩ => ⟨S_, .f32⟩
  | .hbm, ⟨22, _⟩ => ⟨S3x64x64, .f32⟩
  | .hbm, ⟨23, _⟩ => ⟨S3x64x64, .f32⟩
  | .hbm, ⟨24, _⟩ => ⟨S3x64x64, .f32⟩
  | .hbm, ⟨25, _⟩ => ⟨S12288, .f32⟩
  | .hbm, ⟨26, _⟩ => ⟨S12288, .f32⟩
  | .hbm, ⟨27, _⟩ => ⟨S_, .f32⟩
  | .hbm, ⟨28, _⟩ => ⟨S12288, .f32⟩
  | .hbm, ⟨29, _⟩ => ⟨S12288, .i1⟩
  | .hbm, ⟨30, _⟩ => ⟨S12288, .i32⟩
  | .hbm, ⟨31, _⟩ => ⟨S_, .i32⟩
  | .hbm, ⟨32, _⟩ => ⟨S_, .i32⟩
  | .hbm, ⟨33, _⟩ => ⟨S12288, .i32⟩
  | .hbm, ⟨34, _⟩ => ⟨S_, .i32⟩
  | .hbm, ⟨35, _⟩ => ⟨S_, .i32⟩
  | .hbm, ⟨36, _⟩ => ⟨S12288, .i32⟩
  | .hbm, ⟨37, _⟩ => ⟨S12288, .i32⟩
  | .hbm, ⟨38, _⟩ => ⟨S1x12288, .f32⟩
  | .hbm, ⟨39, _⟩ => ⟨S1x12288, .f32⟩
  | .hbm, ⟨40, _⟩ => ⟨S1x12288, .i32⟩
  | .hbm, ⟨41, _⟩ => ⟨S12416x12288, .f32⟩
  | .hbm, ⟨42, _⟩ => ⟨S12289x12288, .f32⟩
  | .hbm, ⟨43, _⟩ => ⟨S12289x3x64x64, .f32⟩
  | .local _ .vmem, ⟨0, _⟩ => ⟨S1x12288, .f32⟩
  | .local _ .vmem, ⟨1, _⟩ => ⟨S1x12288, .f32⟩
  | .local _ .vmem, ⟨2, _⟩ => ⟨S1x12288, .i32⟩
  | .local _ .vmem, ⟨3, _⟩ => ⟨S128x12288, .f32⟩
  | .local _ .vmem, ⟨4, _⟩ => ⟨S128x12288, .f32⟩
  | _, _ => ⟨S3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call2_call0_c : Ref sig .tc := ⟨.hbm, 31, rfl⟩
abbrev main_call2_call0_v0 : Ref sig .tc := ⟨.hbm, 32, rfl⟩
abbrev main_v20 : Ref sig .tc := ⟨.hbm, 33, rfl⟩
abbrev main_c : Ref sig .tc := ⟨.hbm, 34, rfl⟩
abbrev main_call3_v0 : Ref sig .tc := ⟨.hbm, 35, rfl⟩
abbrev main_call3_v1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![97], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12288 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x12288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S3x64x64 : S_.BroadcastsInDim S3x64x64 (![] : Fin 0 → Fin S3x64x64.rank)
  shapeCasts_S3x64x64_S12288 : S3x64x64.ShapeCasts S12288
  bcast_S_S12288 : S_.BroadcastsInDim S12288 (![] : Fin 0 → Fin S12288.rank)
  natLt_1_32 : 1 < 32
  bcast_S_S_ : S_.BroadcastsInDim S_ (![] : Fin 0 → Fin S_.rank)
  reduceWindows_S12288_S12288_w12288s1p12287_0 : S12288.ReduceWindows (![12288] : Fin 1 → Nat) ![1] ![12287] ![0] S12288
  h_S_ : 0 < S_.numel
  shapeCasts_S12288_S1x12288 : S12288.ShapeCasts S1x12288
  iota_S128x12288_d0_w32 : S128x12288.Iotas .tc 32 [0]
  inb_S1x12288_S1x12288_0_0 : ∀ a, (![0, 0] : Fin 2 → Nat) a + S1x12288.size a ≤ S1x12288.size a
  h_S1x12288 : 0 < S1x12288.numel
  shapeCasts_S1x12288_S1x12288 : S1x12288.ShapeCasts S1x12288
  broadcasts_S1x12288_S128x12288 : S1x12288.Broadcasts S128x12288
  inb_S128x12288_S128x12288_0_0 : ∀ a, (![0, 0] : Fin 2 → Nat) a + S128x12288.size a ≤ S128x12288.size a
  h_S128x12288 : 0 < S128x12288.numel
  slices_S12416x12288_S12289x12288_0_0 : S12416x12288.Slices ![0, 0] S12289x12288
  shapeCasts_S12289x12288_S12289x3x64x64 : S12289x12288.ShapeCasts S12289x3x64x64
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x12288.size a ≤ S1x12288.size a
  hwx0_0 : ∀ i : grid0.Coords, EltTy.bits .f32 = 32 ∨ (Rect.block (s := S1x12288) S1x12288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x12288.size a ≤ S1x12288.size a
  hwx0_1 : ∀ i : grid0.Coords, EltTy.bits .f32 = 32 ∨ (Rect.block (s := S1x12288) S1x12288.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x12288.size a ≤ S1x12288.size a
  hwx0_2 : ∀ i : grid0.Coords, EltTy.bits .i32 = 32 ∨ (Rect.block (s := S1x12288) S1x12288.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x12288.size a ≤ S12416x12288.size a
  hwx0_3 : ∀ i : grid0.Coords, EltTy.bits .f32 = 32 ∨ (Rect.block (s := S12416x12288) S128x12288.size (cc0_transform_3 i) (hinb0_3 i)).WholeWords (EltTy.packing .f32)

variable [Facts₀]

abbrev win0_0 : Pipeline.Window sig grid0 :=
  Pipeline.Window.ofSpec (Memref.whole main_v22) S1x12288.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x12288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x12288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x12288.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x64x64 : Shape := ⟨3, ![3, 64, 64]⟩
abbrev S_ : Shape := ⟨0, ![]⟩
abbrev S12288 : Shape := ⟨1, ![12288]⟩
abbrev S12289x12288 : Shape := ⟨2, ![12289, 12288]⟩
abbrev S1 : Shape := ⟨1, ![1]⟩
abbrev S12288x1 : Shape := ⟨2, ![12288, 1]⟩
abbrev S12288x2 : Shape := ⟨2, ![12288, 2]⟩
abbrev S12289x3x64x64 : Shape := ⟨4, ![12289, 3, 64, 64]⟩

abbrev nBuf : Space → Nat
  | .hbm => 64
  | .vmem => 0
  | .smem => 0
  | _ => 0

abbrev bufTy : (tb : Table) → Fin (tcTables nBuf tb) → BufTy
  | .hbm, ⟨0, _⟩ => ⟨S3x64x64, .f32⟩
  | .hbm, ⟨1, _⟩ => ⟨S_, .f32⟩
  | .hbm, ⟨2, _⟩ => ⟨S3x64x64, .f32⟩
  | .hbm, ⟨3, _⟩ => ⟨S3x64x64, .f32⟩
  | .hbm, ⟨4, _⟩ => ⟨S_, .f32⟩
  | .hbm, ⟨5, _⟩ => ⟨S3x64x64, .f32⟩
  | .hbm, ⟨6, _⟩ => ⟨S3x64x64, .f32⟩
  | .hbm, ⟨7, _⟩ => ⟨S_, .f32⟩
  | .hbm, ⟨8, _⟩ => ⟨S3x64x64, .f32⟩
  | .hbm, ⟨9, _⟩ => ⟨S3x64x64, .f32⟩
  | .hbm, ⟨10, _⟩ => ⟨S_, .f32⟩
  | .hbm, ⟨11, _⟩ => ⟨S3x64x64, .f32⟩
  | .hbm, ⟨12, _⟩ => ⟨S3x64x64, .f32⟩
  | .hbm, ⟨13, _⟩ => ⟨S_, .f32⟩
  | .hbm, ⟨14, _⟩ => ⟨S3x64x64, .f32⟩
  | .hbm, ⟨15, _⟩ => ⟨S3x64x64, .f32⟩
  | .hbm, ⟨16, _⟩ => ⟨S_, .f32⟩
  | .hbm, ⟨17, _⟩ => ⟨S3x64x64, .f32⟩
  | .hbm, ⟨18, _⟩ => ⟨S3x64x64, .f32⟩
  | .hbm, ⟨19, _⟩ => ⟨S3x64x64, .f32⟩
  | .hbm, ⟨20, _⟩ => ⟨S3x64x64, .f32⟩
  | .hbm, ⟨21, _⟩ => ⟨S_, .f32⟩
  | .hbm, ⟨22, _⟩ => ⟨S3x64x64, .f32⟩
  | .hbm, ⟨23, _⟩ => ⟨S3x64x64, .f32⟩
  | .hbm, ⟨24, _⟩ => ⟨S3x64x64, .f32⟩
  | .hbm, ⟨25, _⟩ => ⟨S_, .f32⟩
  | .hbm, ⟨26, _⟩ => ⟨S3x64x64, .f32⟩
  | .hbm, ⟨27, _⟩ => ⟨S3x64x64, .i1⟩
  | .hbm, ⟨28, _⟩ => ⟨S12288, .i1⟩
  | .hbm, ⟨29, _⟩ => ⟨S12288, .i32⟩
  | .hbm, ⟨30, _⟩ => ⟨S_, .i32⟩
  | .hbm, ⟨31, _⟩ => ⟨S_, .i32⟩
  | .hbm, ⟨32, _⟩ => ⟨S12288, .i32⟩
  | .hbm, ⟨33, _⟩ => ⟨S_, .i32⟩
  | .hbm, ⟨34, _⟩ => ⟨S_, .i32⟩
  | .hbm, ⟨35, _⟩ => ⟨S12288, .i32⟩
  | .hbm, ⟨36, _⟩ => ⟨S12288, .i32⟩
  | .hbm, ⟨37, _⟩ => ⟨S_, .f32⟩
  | .hbm, ⟨38, _⟩ => ⟨S12289x12288, .f32⟩
  | .hbm, ⟨39, _⟩ => ⟨S12288, .f32⟩
  | .hbm, ⟨40, _⟩ => ⟨S_, .i32⟩
  | .hbm, ⟨41, _⟩ => ⟨S1, .i32⟩
  | .hbm, ⟨42, _⟩ => ⟨S12289x12288, .f32⟩
  | .hbm, ⟨43, _⟩ => ⟨S12288, .i32⟩
  | .hbm, ⟨44, _⟩ => ⟨S12288, .f32⟩
  | .hbm, ⟨45, _⟩ => ⟨S_, .i32⟩
  | .hbm, ⟨46, _⟩ => ⟨S12288, .i32⟩
  | .hbm, ⟨47, _⟩ => ⟨S12288, .i1⟩
  | .hbm, ⟨48, _⟩ => ⟨S_, .i32⟩
  | .hbm, ⟨49, _⟩ => ⟨S12288, .i32⟩
  | .hbm, ⟨50, _⟩ => ⟨S12288, .i32⟩
  | .hbm, ⟨51, _⟩ => ⟨S12288, .i32⟩
  | .hbm, ⟨52, _⟩ => ⟨S_, .i32⟩
  | .hbm, ⟨53, _⟩ => ⟨S12288, .i32⟩
  | .hbm, ⟨54, _⟩ => ⟨S12288, .i1⟩
  | .hbm, ⟨55, _⟩ => ⟨S_, .i32⟩
  | .hbm, ⟨56, _⟩ => ⟨S12288, .i32⟩
  | .hbm, ⟨57, _⟩ => ⟨S12288, .i32⟩
  | .hbm, ⟨58, _⟩ => ⟨S12288, .i32⟩
  | .hbm, ⟨59, _⟩ => ⟨S12288x1, .i32⟩
  | .hbm, ⟨60, _⟩ => ⟨S12288x1, .i32⟩
  | .hbm, ⟨61, _⟩ => ⟨S12288x2, .i32⟩
  | .hbm, ⟨62, _⟩ => ⟨S12289x12288, .f32⟩
  | .hbm, ⟨63, _⟩ => ⟨S12289x3x64x64, .f32⟩
  | _, _ => ⟨S3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call2_call0_c : Ref sig .tc := ⟨.hbm, 30, rfl⟩
abbrev main_call2_call0_v0 : Ref sig .tc := ⟨.hbm, 31, rfl⟩
abbrev main_v19 : Ref sig .tc := ⟨.hbm, 32, rfl⟩
abbrev main_c : Ref sig .tc := ⟨.hbm, 33, rfl⟩
abbrev main_call3_v0 : Ref sig .tc := ⟨.hbm, 34, rfl⟩
abbrev main_call3_v1 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_c_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]

class Facts₀ : Prop where
  bcast_S_S3x64x64 : S_.BroadcastsInDim S3x64x64 (![] : Fin 0 → Fin S3x64x64.rank)
  shapeCasts_S3x64x64_S12288 : S3x64x64.ShapeCasts S12288
  natLt_1_32 : 1 < 32
  bcast_S_S_ : S_.BroadcastsInDim S_ (![] : Fin 0 → Fin S_.rank)
  reduceWindows_S12288_S12288_w12288s1p12287_0 : S12288.ReduceWindows (![12288] : Fin 1 → Nat) ![1] ![12287] ![0] S12288
  h_S_ : 0 < S_.numel
  bcast_S_S12288 : S_.BroadcastsInDim S12288 (![] : Fin 0 → Fin S12288.rank)
  bcast_S_S12289x12288 : S_.BroadcastsInDim S12289x12288 (![] : Fin 0 → Fin S12289x12288.rank)
  bcast_S_S1 : S_.BroadcastsInDim S1 (![] : Fin 0 → Fin S1.rank)
  bcast_S12288_S12288x1_0 : S12288.BroadcastsInDim S12288x1 (![0] : Fin 1 → Fin S12288x1.rank)
  concatenates_S12288x1_S12288x1_S12288x2_d1 : Shape.Concatenates [S12288x1, S12288x1] S12288x2 1
  shapeCasts_S12289x12288_S12289x3x64x64 : S12289x12288.ShapeCasts S12289x3x64x64
  scatter_S12289x12288_S1_S12288_0_0_0_0_wf : ScatterDims.WF S12289x12288 S1 S12288 [0] [0] [0] 0
  scatter_S12289x12288_S12288x2_S12288_n_01_01_1_wf : ScatterDims.WF S12289x12288 S12288x2 S12288 [] [0, 1] [0, 1] 1

variable [Facts₀]

def scatter_S12289x12288_S1_S12288_0_0_0_0 : ScatterDims S12289x12288 S1 S12288 where
  updateWindowDims := [0]
  insertedWindowDims := [0]
  scatterDimsToOperandDims := [0]
  indexVectorDim := 0
  wf := scatter_S12289x12288_S1_S12288_0_0_0_0_wf
def scatter_S12289x12288_S12288x2_S12288_n_01_01_1 : ScatterDims S12289x12288 S12288x2 S12288 where
  updateWindowDims := []
  insertedWindowDims := [0, 1]
  scatterDimsToOperandDims := [0, 1]
  indexVectorDim := 1
  wf := scatter_S12289x12288_S12288x2_S12288_n_01_01_1_wf

class Facts : Prop extends Facts₀ where

variable [Facts]
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.LibConcatCols.lean ====
/-
  Two matrices with the same number of rows laid side by side, read at an entry.

  An [n, a] matrix X and an [n, b] matrix Y concatenated along the column axis give an [n, a + b] matrix whose entry
  (p, c) is X(p, c) when c < a and Y(p, c - a) otherwise: the row is kept and the column picks the piece.
-/
import Idealize.ShloMosaic.Lib.Pipeline.Value
import Idealize.ShloMosaic.Lib.ValueIdx

noncomputable section

namespace Cert.ConcatCols

open Idealize.ShloMosaic Idealize.ShloMosaic.ValueIdx

variable {α : Type}

/-- Entry (p, c) of [X | Y]: X(p, c) for a column of the first piece, Y(p, c - a) for one of the second. The total
    width is given by an equation so that a literal width (256 for 128 + 128) matches as it stands. -/
theorem concatenate_cols_apply {n a b t : Nat} (hab : t = a + b)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, t]⟩ 1) (p : Fin n) (c : Fin t) :
    concatenate ⟨2, ![n, t]⟩ 1 [⟨⟨2, ![n, a]⟩, x⟩, ⟨⟨2, ![n, b]⟩, y⟩] h (ix2 p c)
      = if hc : c.val < a then x (ix2 p ⟨c.val, hc⟩)
        else y (ix2 p ⟨c.val - a, by have := c.isLt; omega⟩) := by
  by_cases hc : c.val < a
  · rw [dif_pos hc]
    exact concatenate_pair_apply_left 1 x y h (ix2 p c) rfl (ix2 p ⟨c.val, hc⟩)
      (fun d => match d with | ⟨0, _⟩ => rfl | ⟨1, _⟩ => rfl)
  · rw [dif_neg hc]
    refine concatenate_pair_apply_right 1 x y h (ix2 p c) rfl rfl (ix2 p ⟨c.val - a, by have := c.isLt; omega⟩) ?_ ?_
    · intro d hd
      match d, hd with
      | ⟨0, _⟩, _ => rfl
      | ⟨1, _⟩, hd => exact absurd rfl hd
    · show (c.val - a) + a = c.val
      omega

end Cert.ConcatCols

end
-- ==== Proof.LibTakeFill.lean ====
/-
  jnp.take in its fill mode, on the host: the bounds mask, and when it is all ones.

  jnp.take(table, idx, axis=0) first counts a negative index from the end (n is added to a word below zero), then
  gathers the rows at the clamped indices, and last keeps a gathered row only where the normalised index lies in
  [0, n - 1], writing NaN elsewhere. The mask is a reduction by `and` of the two comparisons over a unit axis.
  Plain indexing table[idx] does the first two steps and no third. So the two agree exactly where the mask is all ones,
  and the mask is all ones when every index lies in [-n, n) read as a signed word: a word in [0, n) is kept as it is,
  a word in [-n, 0) has n added without wrapping and lands in [0, n).

  Here: a reduction by `and` of an array of ones from one is one everywhere; a select under a mask of ones is its first
  branch; and the arithmetic of the normalised index for a table of n rows, n below 2^31.
-/
import Idealize.ShloMosaic.PureOps
import Idealize.ShloMosaic.PureOps.Reduce
import Idealize.ShloMosaic.Lib.StableHlo.Predicate

namespace Cert.TakeFill

open Idealize.ShloMosaic

/-! ## A mask of ones -/

/-- A left fold by `and` from one over words that are all one is one. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 (f a) = 1#1 := by rw [hf a]; decide
    rw [List.foldl_cons, h1]
    exact foldl_andi_ones f hf l

/-- `jnp.all` along any axes of an array of ones, from the initial value one, is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) :
    Host.reduce IntOp.andi x init h hu = fun _ => 1#1 := by
  funext j
  rw [Host.reduce_eq_foldl, hinit]
  exact foldl_andi_ones x hx _

/-- A select under a mask of ones keeps its first branch everywhere. -/
theorem select_ones {s : Shape} {α : Type} (c : IVec s 1) (a b : s.Idx → α) (hc : ∀ i, c i = 1#1) : select c a b = a := by
  funext i
  show Scalar.select (c i) (a i) (b i) = a i
  rw [hc i]
  rfl

/-! ## The normalised index -/

/-- A one-bit word made from a Boolean is one exactly when the Boolean holds. -/
theorem ofBool_eq_one (b : Bool) : BitVec.ofBool b = 1#1 ↔ b = true := by cases b <;> decide

/-- The signed comparisons, read back as comparisons of the words' signed values. -/
theorem cmpi_sge_iff (a b : BitVec 32) : IntOp.cmpi .sge a b = 1#1 ↔ b.toInt ≤ a.toInt := by
  unfold IntOp.cmpi; rw [ofBool_eq_one, BitVec.sle_iff_toInt_le]
theorem cmpi_sle_iff (a b : BitVec 32) : IntOp.cmpi .sle a b = 1#1 ↔ a.toInt ≤ b.toInt := by
  unfold IntOp.cmpi; rw [ofBool_eq_one, BitVec.sle_iff_toInt_le]
theorem cmpi_slt_iff (a b : BitVec 32) : IntOp.cmpi .slt a b = 1#1 ↔ a.toInt < b.toInt := by
  unfold IntOp.cmpi; rw [ofBool_eq_one, BitVec.slt_iff_toInt_lt]

/-- jnp's index normalisation for a table of `n` rows (`n` below 2^31): a word whose signed value lies in [-n, n), with
    `n` added when it is negative, lies in [0, n - 1]. The two conclusions are the two comparisons of jnp.take's bounds mask. -/
theorem norm_in_range (n : Nat) (hn0 : 0 < n) (hn : n < 2 ^ 31) (w : BitVec 32)
    (hlo : -(n : Int) ≤ w.toInt) (hhi : w.toInt < (n : Int)) :
    IntOp.cmpi .sge (Scalar.select (IntOp.cmpi .slt w 0#32) (IntOp.addi w (BitVec.ofNat 32 n)) w) 0#32 = 1#1
    ∧ IntOp.cmpi .sle (Scalar.select (IntOp.cmpi .slt w 0#32) (IntOp.addi w (BitVec.ofNat 32 n)) w) (BitVec.ofNat 32 (n - 1)) = 1#1 := by
  have hnI : (BitVec.ofNat 32 n).toInt = (n : Int) := StableHlo.Predicate.toInt_ofNat_small n hn
  have hn1I : (BitVec.ofNat 32 (n - 1)).toInt = ((n - 1 : Nat) : Int) := StableHlo.Predicate.toInt_ofNat_small (n - 1) (by omega)
  have h0I : (0#32 : BitVec 32).toInt = 0 := by decide
  rw [cmpi_sge_iff, cmpi_sle_iff, h0I, hn1I]
  by_cases hneg : w.toInt < 0
  · have hc : IntOp.cmpi .slt w 0#32 = 1#1 := (cmpi_slt_iff _ _).2 (by rw [h0I]; exact hneg)
    have hadd : (IntOp.addi w (BitVec.ofNat 32 n)).toInt = w.toInt + n := by
      show (w + BitVec.ofNat 32 n).toInt = _
      rw [BitVec.toInt_add, hnI]
      apply Int.bmod_eq_of_le <;> omega
    rw [hc]
    show 0 ≤ (IntOp.addi w (BitVec.ofNat 32 n)).toInt ∧ (IntOp.addi w (BitVec.ofNat 32 n)).toInt ≤ _
    rw [hadd]; omega
  · have hc : IntOp.cmpi .slt w 0#32 ≠ 1#1 := fun h => hneg (by have := (cmpi_slt_iff _ _).1 h; rwa [h0I] at this)
    have hsel : Scalar.select (IntOp.cmpi .slt w 0#32) (IntOp.addi w (BitVec.ofNat 32 n)) w = w := if_neg hc
    rw [hsel]; omega

end Cert.TakeFill
-- ==== Proof.LibColumns.lean ====
import Idealize.ShloMosaic.Lib.ValueIdx
import Idealize.ShloMosaic.PureOps.ShapeOps
import proofs.«117034_j26998164423199_1_alg».proof.Proof.LibScatterRead

/-!
Columns of a matrix through the host's gather and scatter, read at an entry.

A scatter is the left fold, over the update elements in row-major order, of the step that replaces the operand's
element an update lands on by the body applied to that element and the update. Read at ONE element of the operand the
fold is simple whenever at most one update lands there: with none the element is the operand's own
(`scatter_apply_of_not_lands`), with exactly one it is the body applied to the operand's element and that update
(`scatter_apply_of_lands`). Both hold for any dimension numbers and any body.

`gather_cols_apply`: a gather that takes `n` whole columns of a `[T, C]` matrix at an `[n, 1]` column of
start indices (the column selection `x[:, idx]`) has at entry `(t, j)` the matrix's entry `(t, k)` when index `j` is the
in-range column number `k`.
`scatter_col_set_apply`: a scatter that writes a length-`T` vector over column `k` of a `[T, C]` matrix
(the column assignment `x[:, k] := u`, one scatter index) has at entry `(t, e)` the vector's entry `t` when `e = k` and the
matrix's own entry otherwise.
-/

noncomputable section

namespace Cert.Columns

open Idealize.ShloMosaic Idealize.ShloMosaic.ValueIdx

/-! ## A scatter read at one element, for any dimension numbers -/

section Fold

variable {α : Type} {s si u : Shape} {w : Nat}

/-- One step of the scatter's fold: update number `n` (row-major) replaces the element it lands on, if any. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- The scatter is the fold of that step over all update numbers in order. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update lands on `i` puts the body's value there. -/
theorem step_of_lands (d : ScatterDims s si u) (f : α → α → α) (idx : IVec si w) (upd : u.Idx → α)
    (r : s.Idx → α) (n : Fin u.numel) (i : s.Idx) (h : d.resultIdx? (u.rowMajor.symm n) idx = some i) :
    step d f idx upd r n i = f (r i) (upd (u.rowMajor.symm n)) := by
  unfold step
  rw [h]
  exact if_pos rfl

/-- A step whose update does not land on `i` leaves that element alone. -/
theorem step_of_not_lands (d : ScatterDims s si u) (f : α → α → α) (idx : IVec si w) (upd : u.Idx → α)
    (r : s.Idx → α) (n : Fin u.numel) (i : s.Idx) (h : d.resultIdx? (u.rowMajor.symm n) idx ≠ some i) :
    step d f idx upd r n i = r i := by
  unfold step
  cases hr : d.resultIdx? (u.rowMajor.symm n) idx with
  | none => rfl
  | some i0 => exact if_neg fun e => h (by rw [hr, e])

/-- Steps none of which lands on `i` leave that element alone. -/
theorem foldl_step_of_not_lands (d : ScatterDims s si u) (f : α → α → α) (idx : IVec si w) (upd : u.Idx → α)
    (i : s.Idx) (l : List (Fin u.numel)) (hl : ∀ n ∈ l, d.resultIdx? (u.rowMajor.symm n) idx ≠ some i)
    (r : s.Idx → α) :
    l.foldl (step d f idx upd) r i = r i := by
  induction l generalizing r with
  | nil => rfl
  | cons a l ih =>
    rw [List.foldl_cons, ih (fun n hn => hl n (List.mem_cons_of_mem _ hn))]
    exact step_of_not_lands d f idx upd r a i (hl a List.mem_cons_self)

/-- Steps over distinct update numbers exactly one of which, `n0`, lands on `i`: the element there is the body
    applied to the starting element and update `n0`. The steps before `n0` leave the element alone, step `n0`
    writes it, and the steps after leave it alone again. -/
theorem foldl_step_of_lands (d : ScatterDims s si u) (f : α → α → α) (idx : IVec si w) (upd : u.Idx → α)
    (i : s.Idx) (n0 : Fin u.numel) (h0 : d.resultIdx? (u.rowMajor.symm n0) idx = some i)
    (l : List (Fin u.numel)) (hnd : l.Nodup) (hmem : n0 ∈ l)
    (huniq : ∀ n ∈ l, d.resultIdx? (u.rowMajor.symm n) idx = some i → n = n0) (r : s.Idx → α) :
    l.foldl (step d f idx upd) r i = f (r i) (upd (u.rowMajor.symm n0)) := by
  induction l generalizing r with
  | nil => cases hmem
  | cons a l ih =>
    rw [List.foldl_cons]
    have hnd' := List.nodup_cons.mp hnd
    by_cases ha : a = n0
    · rw [foldl_step_of_not_lands d f idx upd i l (fun n hn e =>
        hnd'.1 (by rw [ha, ← huniq n (List.mem_cons_of_mem _ hn) e]; exact hn))]
      rw [ha]
      exact step_of_lands d f idx upd r n0 i h0
    · have hm : n0 ∈ l := (List.mem_cons.mp hmem).resolve_left (Ne.symm ha)
      rw [ih hnd'.2 hm (fun n hn => huniq n (List.mem_cons_of_mem _ hn))]
      rw [step_of_not_lands d f idx upd r a i (fun e => ha (huniq a List.mem_cons_self e))]

/-- THE SCATTER AT AN ELEMENT NO UPDATE LANDS ON: the operand's own element. -/
theorem scatter_apply_of_not_lands (d : ScatterDims s si u) (f : α → α → α) (x : s.Idx → α) (idx : IVec si w)
    (upd : u.Idx → α) (i : s.Idx) (h : ∀ j, d.resultIdx? j idx ≠ some i) :
    Host.scatter d f x idx upd i = x i := by
  rw [scatter_eq_foldl]
  exact foldl_step_of_not_lands d f idx upd i _ (fun n _ => h _) x

/-- THE SCATTER AT AN ELEMENT EXACTLY ONE UPDATE LANDS ON: the body applied to the operand's element and that update. -/
theorem scatter_apply_of_lands (d : ScatterDims s si u) (f : α → α → α) (x : s.Idx → α) (idx : IVec si w)
    (upd : u.Idx → α) (i : s.Idx) (j0 : u.Idx) (h0 : d.resultIdx? j0 idx = some i)
    (huniq : ∀ j, d.resultIdx? j idx = some i → j = j0) :
    Host.scatter d f x idx upd i = f (x i) (upd j0) := by
  rw [scatter_eq_foldl]
  have h0' : d.resultIdx? (u.rowMajor.symm (u.rowMajor j0)) idx = some i := by
    rw [Equiv.symm_apply_apply]; exact h0
  rw [foldl_step_of_lands d f idx upd i (u.rowMajor j0) h0' _ (List.nodup_finRange _) (List.mem_finRange _)
    (fun n _ e => by rw [← huniq _ e, Equiv.apply_symm_apply]) x]
  rw [Equiv.symm_apply_apply]

end Fold

variable {α : Type} {T C n w : Nat}

/-! ## The column gather -/

/-- The dimension record of the column selection `x[:, idx]`: whole columns gathered, the column axis collapsed. -/
abbrev colGatherDims (T C n : Nat)
    (wf : GatherDims.WF ⟨2, ![T, C]⟩ ⟨2, ![n, 1]⟩ ⟨2, ![T, n]⟩ [0] [1] [] [1] [] 1 ![T, 1]) :
    GatherDims ⟨2, ![T, C]⟩ ⟨2, ![n, 1]⟩ ⟨2, ![T, n]⟩ where
  offsetDims := [0]
  collapsedSliceDims := [1]
  operandBatchingDims := []
  startIndicesBatchingDims := []
  startIndexMap := [1]
  indexVectorDim := 1
  sliceSizes := ![T, 1]
  wf := wf

/-- The gathered matrix at `(t, j)` is the operand at `(t, k)` when index `j` is the column number `k`. On the row
    axis nothing names a start and the offset coordinate is the result's row; on the column axis the start is index
    `j` read signed and clamped into `[0, C - 1]`, which leaves an in-range column alone, and the axis is collapsed. -/
theorem gather_cols_apply (wf) (x : (⟨2, ![T, C]⟩ : Shape).Idx → α) (idx : IVec ⟨2, ![n, 1]⟩ w)
    (t : Fin T) (j : Fin n) (k : Fin C) (hk : (idx (ix2 j (0 : Fin 1))).toInt = (k.val : Int)) :
    Host.gather (colGatherDims T C n wf) x idx (ix2 t j) = x (ix2 t k) := by
  unfold Host.gather
  congr 1
  funext a
  refine Fin.ext ?_
  match a with
  | ⟨0, _⟩ =>
    show (colGatherDims T C n wf).start (ix2 t j) idx 0 + (colGatherDims T C n wf).batchCoord (ix2 t j) 0
      + (colGatherDims T C n wf).offCoord (ix2 t j) 0 = t.val
    rw [GatherDims.batchCoord_eq_zero _ _ _ List.not_mem_nil]
    unfold GatherDims.start GatherDims.offCoord
    rw [dif_neg (show ¬ ((0 : Fin 2) ∈ ([1] : List (Fin 2))) by decide),
      dif_pos ((GatherDims.mem_sKept _ _).mpr
        ⟨show ¬ ((0 : Fin 2) ∈ ([1] : List (Fin 2))) by decide, List.not_mem_nil⟩)]
    simp only [Nat.add_zero, Nat.zero_add]
    rfl
  | ⟨1, _⟩ =>
    show (colGatherDims T C n wf).start (ix2 t j) idx 1 + (colGatherDims T C n wf).batchCoord (ix2 t j) 1
      + (colGatherDims T C n wf).offCoord (ix2 t j) 1 = k.val
    rw [GatherDims.batchCoord_eq_zero _ _ _ List.not_mem_nil,
      GatherDims.offCoord_eq_zero _ _ _ (fun h => ((GatherDims.mem_sKept _ _).mp h).1
        (show (1 : Fin 2) ∈ ([1] : List (Fin 2)) by decide))]
    simp only [Nat.add_zero]
    unfold GatherDims.start
    rw [dif_pos (show (1 : Fin 2) ∈ ([1] : List (Fin 2)) by decide)]
    have hsi : (colGatherDims T C n wf).siIdx (ix2 t j) ⟨List.idxOf (1 : Fin 2) (colGatherDims T C n wf).startIndexMap,
        List.idxOf_lt_length_iff.2 (show (1 : Fin 2) ∈ ([1] : List (Fin 2)) by decide)⟩ = ix2 j 0 := by
      funext c; refine Fin.ext ?_
      match c with
      | ⟨0, _⟩ => rfl
      | ⟨1, _⟩ => rfl
    rw [hsi, hk, Int.toNat_natCast]
    show min k.val (C - 1) = k.val
    have := k.isLt
    omega

/-! ## The column scatter -/

/-- The dimension record of the column assignment `x[:, k] := u`: one scatter index, the update a whole column. -/
abbrev colScatterDims (T C : Nat)
    (wf : ScatterDims.WF ⟨2, ![T, C]⟩ ⟨1, ![1]⟩ ⟨1, ![T]⟩ [0] [1] [1] 0) :
    ScatterDims ⟨2, ![T, C]⟩ ⟨1, ![1]⟩ ⟨1, ![T]⟩ where
  updateWindowDims := [0]
  insertedWindowDims := [1]
  scatterDimsToOperandDims := [1]
  indexVectorDim := 0
  wf := wf

section ColScatter

variable (wf : ScatterDims.WF ⟨2, ![T, C]⟩ ⟨1, ![1]⟩ ⟨1, ![T]⟩ [0] [1] [1] 0)

/-- On the row axis every update starts at zero: no entry of the scatter index names it. -/
theorem col_start0 (idx : IVec ⟨1, ![1]⟩ w) (j : (⟨1, ![T]⟩ : Shape).Idx) :
    (colScatterDims T C wf).start j idx 0 = 0 := by
  unfold ScatterDims.start
  exact dif_neg (show ¬ ((0 : Fin 2) ∈ ([1] : List (Fin 2))) by decide)

/-- On the column axis every update starts at the one scatter index, read signed. -/
theorem col_start1 (idx : IVec ⟨1, ![1]⟩ w) (j : (⟨1, ![T]⟩ : Shape).Idx) :
    (colScatterDims T C wf).start j idx 1 = (idx (ix1 (0 : Fin 1))).toInt := by
  unfold ScatterDims.start
  rw [dif_pos (show (1 : Fin 2) ∈ ([1] : List (Fin 2)) by decide)]
  have hsi : (colScatterDims T C wf).siIdx j ⟨List.idxOf (1 : Fin 2) (colScatterDims T C wf).scatterDimsToOperandDims,
      List.idxOf_lt_length_iff.2 (show (1 : Fin 2) ∈ ([1] : List (Fin 2)) by decide)⟩ = ix1 0 := by
    funext c; refine Fin.ext ?_
    match c with
    | ⟨0, _⟩ => rfl
  rw [hsi]

/-- On the row axis the window coordinate is the update's own position. -/
theorem col_window0 (t : Fin T) : (colScatterDims T C wf).window (ix1 t) 0 = t.val := by
  unfold ScatterDims.window
  have h0 : (0 : Fin 2) ∈ (colScatterDims T C wf).sKept :=
    show (0 : Fin 2) ∈ ((List.finRange 2).filter (· ∉ ([1] : List (Fin 2)))) by decide
  rw [dif_pos h0]
  rfl

/-- The column axis is inserted: no window coordinate there. -/
theorem col_window1 (j : (⟨1, ![T]⟩ : Shape).Idx) : (colScatterDims T C wf).window j 1 = 0 := by
  unfold ScatterDims.window
  exact dif_neg (show ¬ ((1 : Fin 2) ∈ ((List.finRange 2).filter (· ∉ ([1] : List (Fin 2))))) by decide)

/-- Update `t'` lands on `(t, e)` exactly when `t'` is `t` and the scatter index, read signed, is `e`. -/
theorem col_lands_iff (idx : IVec ⟨1, ![1]⟩ w) (t' t : Fin T) (e : Fin C) :
    (colScatterDims T C wf).resultIdx? (ix1 t') idx = some (ix2 t e) ↔
      t' = t ∧ (idx (ix1 (0 : Fin 1))).toInt = (e.val : Int) := by
  rw [Cert.SparseMM.resultIdx?_eq_some_iff]
  constructor
  · intro h
    have h0 := h 0
    have h1 := h 1
    rw [col_start0, col_window0, zero_add] at h0
    rw [col_start1, col_window1, Nat.cast_zero, add_zero] at h1
    exact ⟨Fin.ext (by exact_mod_cast h0), h1⟩
  · intro h a
    match a with
    | ⟨0, _⟩ =>
      show (colScatterDims T C wf).start (ix1 t') idx 0 + ((colScatterDims T C wf).window (ix1 t') 0 : Int) = (t.val : Int)
      rw [col_start0, col_window0, zero_add, h.1]
    | ⟨1, _⟩ =>
      show (colScatterDims T C wf).start (ix1 t') idx 1 + ((colScatterDims T C wf).window (ix1 t') 1 : Int) = (e.val : Int)
      rw [col_start1, col_window1, Nat.cast_zero, add_zero]; exact h.2

end ColScatter

/-- The scattered matrix at `(t, e)` is the update's entry `t` on column `k` and the operand elsewhere. Update `t'`
    lands on cell `(t', k)`: the cells are pairwise distinct, so on column `k` exactly update `t` lands on `(t, k)`, and
    off column `k` no update lands. -/
theorem scatter_col_set_apply (wf) (x : (⟨2, ![T, C]⟩ : Shape).Idx → α) (idx : IVec ⟨1, ![1]⟩ w)
    (u : (⟨1, ![T]⟩ : Shape).Idx → α) (k : Fin C) (hk : (idx (ix1 (0 : Fin 1))).toInt = (k.val : Int))
    (t : Fin T) (e : Fin C) :
    Host.scatter (colScatterDims T C wf) (fun _ b => b) x idx u (ix2 t e)
      = if e = k then u (ix1 t) else x (ix2 t e) := by
  by_cases he : e = k
  · rw [if_pos he]
    refine scatter_apply_of_lands _ _ x idx u (ix2 t e) (ix1 t) ?_ ?_
    · exact (col_lands_iff wf idx t t e).mpr ⟨rfl, by rw [hk, he]⟩
    · intro j hj
      rw [eq_ix1 j] at hj
      have h1 : (j 0 : Fin T) = t := ((col_lands_iff wf idx (j 0) t e).mp hj).1
      exact (eq_ix1 j).trans (congrArg ix1 h1)
  · rw [if_neg he]
    refine scatter_apply_of_not_lands _ _ x idx u (ix2 t e) ?_
    intro j hj
    rw [eq_ix1 j] at hj
    have h1 := ((col_lands_iff wf idx (j 0) t e).mp hj).2
    rw [hk] at h1
    exact he (Fin.ext (by exact_mod_cast h1.symm))

end Cert.Columns

end
-- ==== Proof.LibScatterSet.lean ====
/-
  Two assignments into a matrix, read at an entry.

  ROW: `x.at[r0].set(u)` is a scatter with ONE scatter index; the update is a whole row of length C, whose entry k lands
  on cell (r0, k). So the result is u on row r0 and x elsewhere.
  CELLS ON DISTINCT COLUMNS: `x.at[rows, arange(C)].set(u)` is a scatter whose start indices are the pairs
  (rows[k], k): update k can only land in column k, so at most one update lands on any cell, and cell (r, c) holds u[c]
  when rows[c], read signed, is r, and x's entry otherwise. An update whose row is outside the matrix lands nowhere.
-/
import Idealize.ShloMosaic.Lib.ValueIdx
import Idealize.ShloMosaic.PureOps.ShapeOps
import proofs.«117034_j26998164423199_1_alg».proof.Proof.LibScatterRead
import proofs.«117034_j26998164423199_1_alg».proof.Proof.LibColumns

noncomputable section

namespace Cert.ScatterSet

open Idealize.ShloMosaic Idealize.ShloMosaic.ValueIdx

variable {α : Type} {R C w : Nat}

/-! ## A whole row written at one scatter index -/

/-- The dimension record of the row assignment: one scatter index naming the row axis, the update a whole row. -/
abbrev rowSetDims (R C : Nat) (wf : ScatterDims.WF ⟨2, ![R, C]⟩ ⟨1, ![1]⟩ ⟨1, ![C]⟩ [0] [0] [0] 0) :
    ScatterDims ⟨2, ![R, C]⟩ ⟨1, ![1]⟩ ⟨1, ![C]⟩ where
  updateWindowDims := [0]
  insertedWindowDims := [0]
  scatterDimsToOperandDims := [0]
  indexVectorDim := 0
  wf := wf

section RowSet

variable (wf : ScatterDims.WF ⟨2, ![R, C]⟩ ⟨1, ![1]⟩ ⟨1, ![C]⟩ [0] [0] [0] 0)

/-- On the row axis every update starts at the one scatter index, read signed. -/
theorem row_start0 (idx : IVec ⟨1, ![1]⟩ w) (j : (⟨1, ![C]⟩ : Shape).Idx) :
    (rowSetDims R C wf).start j idx 0 = (idx (ix1 (0 : Fin 1))).toInt := by
  unfold ScatterDims.start
  rw [dif_pos (show (0 : Fin 2) ∈ ([0] : List (Fin 2)) by decide)]
  have hsi : (rowSetDims R C wf).siIdx j ⟨List.idxOf (0 : Fin 2) (rowSetDims R C wf).scatterDimsToOperandDims,
      List.idxOf_lt_length_iff.2 (show (0 : Fin 2) ∈ ([0] : List (Fin 2)) by decide)⟩ = ix1 0 := by
    funext c; refine Fin.ext ?_
    match c with
    | ⟨0, _⟩ => rfl
  rw [hsi]

/-- On the column axis every update starts at zero: no entry of the scatter index names it. -/
theorem row_start1 (idx : IVec ⟨1, ![1]⟩ w) (j : (⟨1, ![C]⟩ : Shape).Idx) :
    (rowSetDims R C wf).start j idx 1 = 0 := by
  unfold ScatterDims.start
  exact dif_neg (show ¬ ((1 : Fin 2) ∈ ([0] : List (Fin 2))) by decide)

/-- The row axis is inserted: no window coordinate there. -/
theorem row_window0 (j : (⟨1, ![C]⟩ : Shape).Idx) : (rowSetDims R C wf).window j 0 = 0 := by
  unfold ScatterDims.window
  exact dif_neg (show ¬ ((0 : Fin 2) ∈ ((List.finRange 2).filter (· ∉ ([0] : List (Fin 2))))) by decide)

/-- On the column axis the window coordinate is the update's own position. -/
theorem row_window1 (k : Fin C) : (rowSetDims R C wf).window (ix1 k) 1 = k.val := by
  unfold ScatterDims.window
  have h1 : (1 : Fin 2) ∈ (rowSetDims R C wf).sKept :=
    show (1 : Fin 2) ∈ ((List.finRange 2).filter (· ∉ ([0] : List (Fin 2)))) by decide
  rw [dif_pos h1]
  rfl

/-- Update k' lands on (r, k) exactly when the scatter index, read signed, is r, and k' is k. -/
theorem row_lands_iff (idx : IVec ⟨1, ![1]⟩ w) (k' : Fin C) (r : Fin R) (k : Fin C) :
    (rowSetDims R C wf).resultIdx? (ix1 k') idx = some (ix2 r k) ↔
      (idx (ix1 (0 : Fin 1))).toInt = (r.val : Int) ∧ k' = k := by
  rw [Cert.SparseMM.resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowSetDims R C wf).start (ix1 k') idx 0 + ((rowSetDims R C wf).window (ix1 k') 0 : Int) = (r.val : Int)
      rw [row_start0, row_window0, Nat.cast_zero, add_zero]; exact h.1
    | ⟨1, _⟩ =>
      show (rowSetDims R C wf).start (ix1 k') idx 1 + ((rowSetDims R C wf).window (ix1 k') 1 : Int) = (k.val : Int)
      rw [row_start1, row_window1, zero_add, h.2]

end RowSet

/-- THE ROW ASSIGNMENT READ AT (r, k): the update's entry k on row r0, the operand's own entry on every other row. -/
theorem scatter_row_set_apply (wf) (x : (⟨2, ![R, C]⟩ : Shape).Idx → α) (idx : IVec ⟨1, ![1]⟩ w)
    (u : (⟨1, ![C]⟩ : Shape).Idx → α) (r0 : Fin R) (h0 : (idx (ix1 (0 : Fin 1))).toInt = (r0.val : Int))
    (r : Fin R) (k : Fin C) :
    Host.scatter (rowSetDims R C wf) (fun _ b => b) x idx u (ix2 r k)
      = if r = r0 then u (ix1 k) else x (ix2 r k) := by
  by_cases hr : r = r0
  · rw [if_pos hr]
    refine Cert.Columns.scatter_apply_of_lands _ _ x idx u (ix2 r k) (ix1 k) ?_ ?_
    · exact (row_lands_iff wf idx k r k).mpr ⟨by rw [h0, hr], rfl⟩
    · intro j hj
      rw [eq_ix1 j] at hj
      have h1 : (j 0 : Fin C) = k := ((row_lands_iff wf idx (j 0) r k).mp hj).2
      exact (eq_ix1 j).trans (congrArg ix1 h1)
  · rw [if_neg hr]
    refine Cert.Columns.scatter_apply_of_not_lands _ _ x idx u (ix2 r k) ?_
    intro j hj
    rw [eq_ix1 j] at hj
    have h1 := ((row_lands_iff wf idx (j 0) r k).mp hj).1
    rw [h0] at h1
    exact hr (Fin.ext (by exact_mod_cast h1.symm))

/-! ## Cells on distinct columns -/

/-- THE CELL ASSIGNMENT READ AT (r, c), when update k's column is k: the update's entry c where the row update c names,
    read signed, is r; the operand's own entry otherwise. -/
theorem scatter_cells_diag_apply (wf : ScatterDims.WF ⟨2, ![R, C]⟩ ⟨2, ![C, 2]⟩ ⟨1, ![C]⟩ [] [0, 1] [0, 1] 1)
    (x : (⟨2, ![R, C]⟩ : Shape).Idx → α) (idx : IVec ⟨2, ![C, 2]⟩ w) (u : (⟨1, ![C]⟩ : Shape).Idx → α)
    (hcol : ∀ k : Fin C, (idx (ix2 k 1)).toInt = (k.val : Int)) (r : Fin R) (c : Fin C) :
    Host.scatter (Cert.SparseMM.cellDims R C C wf) (fun _ b => b) x idx u (ix2 r c)
      = if (idx (ix2 c 0)).toInt = (r.val : Int) then u (ix1 c) else x (ix2 r c) := by
  have col_of_lands : ∀ j : (⟨1, ![C]⟩ : Shape).Idx,
      (Cert.SparseMM.cellDims R C C wf).resultIdx? j idx = some (ix2 r c) → (j 0 : Fin C) = c := by
    intro j hj
    rw [eq_ix1 j] at hj
    have h1 := ((Cert.SparseMM.cell_lands_iff wf idx (j 0) r c).mp hj).2
    rw [hcol (j 0)] at h1
    exact Fin.ext (by exact_mod_cast h1)
  by_cases hr : (idx (ix2 c 0)).toInt = (r.val : Int)
  · rw [if_pos hr]
    refine Cert.Columns.scatter_apply_of_lands _ _ x idx u (ix2 r c) (ix1 c) ?_ ?_
    · exact (Cert.SparseMM.cell_lands_iff wf idx c r c).mpr ⟨hr, hcol c⟩
    · intro j hj
      exact (eq_ix1 j).trans (congrArg ix1 (col_of_lands j hj))
  · rw [if_neg hr]
    refine Cert.Columns.scatter_apply_of_not_lands _ _ x idx u (ix2 r c) ?_
    intro j hj
    have hc := col_of_lands j hj
    rw [eq_ix1 j, hc] at hj
    exact hr ((Cert.SparseMM.cell_lands_iff wf idx c r c).mp hj).1

end Cert.ScatterSet

end
-- ==== Proof.Zono.lean ====
/-
  The zonotope matrix, stated once, and its two spellings.

  From a centre vector, an error vector, a zero and a vector of row numbers (all of length C) the matrix Z of R rows is
      Z(0, k) = centre(k),    Z(r, k) = error(k) where r = rows(k) (r ≥ 1),    Z(r, k) = 0 elsewhere,
  the row numbers read as signed words.

  COMPARE AND SELECT. Row r of the matrix is met as the 32-bit word of r (r below 2^31), and entry (r, k) is chosen by two
  word comparisons: with 0, and with rows(k). The word of r is 0 exactly when r is 0, and equals a word w exactly when
  w, read signed, is r.

  TWO ASSIGNMENTS. Starting from zeros, row 0 is set to the centre, and then cell (rows'(k), k) is set to error(k) for
  every k, where rows' counts a negative row number from the end (R is added to it) and a cell outside the matrix is
  skipped. When every row number is at least 1 no counting from the end happens and no update touches row 0, so the two
  spellings give the same matrix.
-/
import Idealize.ShloMosaic.Lib.ValueIdx
import Idealize.ShloMosaic.Lib.Pipeline.Value
import Idealize.ShloMosaic.Lib.StableHlo.Predicate
import proofs.«117034_j26998164423199_1_alg».proof.Proof.LibScatterRead
import proofs.«117034_j26998164423199_1_alg».proof.Proof.LibConcatCols
import proofs.«117034_j26998164423199_1_alg».proof.Proof.LibTakeFill
import proofs.«117034_j26998164423199_1_alg».proof.Proof.LibScatterSet

noncomputable section

namespace Cert.Zono

open Idealize.ShloMosaic Idealize.ShloMosaic.ValueIdx

variable {α : Type} {R C : Nat}

/-- The matrix: the centre on row 0, each error on the row its row number names, zero elsewhere. -/
def zono (cen er : (⟨1, ![C]⟩ : Shape).Idx → α) (zero : α) (rows : IVec ⟨1, ![C]⟩ 32) :
    (⟨2, ![R, C]⟩ : Shape).Idx → α :=
  fun i => if (i 0).val = 0 then cen (ix1 (i 1))
    else if (rows (ix1 (i 1))).toInt = ((i 0).val : Int) then er (ix1 (i 1)) else zero

theorem zono_apply (cen er : (⟨1, ![C]⟩ : Shape).Idx → α) (zero : α) (rows : IVec ⟨1, ![C]⟩ 32) (r : Fin R) (k : Fin C) :
    zono (R := R) cen er zero rows (ix2 r k)
      = if r.val = 0 then cen (ix1 k) else if (rows (ix1 k)).toInt = (r.val : Int) then er (ix1 k) else zero := rfl

/-! ## Words -/

/-- The word of a number below 2^32 is zero exactly when the number is. -/
theorem ofNat_eq_zero_iff (r : Nat) (hr : r < 2 ^ 32) : BitVec.ofNat 32 r = 0#32 ↔ r = 0 := by
  constructor
  · intro h
    have := congrArg BitVec.toNat h
    simp only [BitVec.toNat_ofNat] at this
    rw [Nat.mod_eq_of_lt hr] at this
    exact this
  · rintro rfl; rfl

/-- The word of a number below 2^31 equals a word exactly when that word, read signed, is the number. -/
theorem ofNat_eq_iff_toInt (r : Nat) (hr : r < 2 ^ 31) (w : BitVec 32) : BitVec.ofNat 32 r = w ↔ w.toInt = (r : Int) := by
  constructor
  · rintro rfl
    exact StableHlo.Predicate.toInt_ofNat_small r hr
  · intro h
    apply BitVec.eq_of_toNat_eq
    rw [BitVec.toNat_ofNat, Nat.mod_eq_of_lt (by omega)]
    have hw := w.isLt
    rw [BitVec.toInt_eq_toNat_cond] at h
    split at h <;> omega

/-- A one-bit comparison used as a selector: `select` takes its first branch exactly when the two words are equal. -/
theorem select_cmpi_eq {β : Type} (a b : BitVec 32) (x y : β) :
    Scalar.select (IntOp.cmpi .eq a b) x y = if a = b then x else y := by
  unfold Scalar.select
  exact if_congr StableHlo.Predicate.cmpi_eq_iff rfl rfl

/-- COMPARE AND SELECT at one entry: the two selects on the word of r are the matrix's entry (r, k). -/
theorem select_entry (r : Nat) (hr : r < 2 ^ 31) (cenk erk zero : α) (rowsk : BitVec 32) :
    Scalar.select (IntOp.cmpi .eq (BitVec.ofNat 32 r) 0#32) cenk
        (Scalar.select (IntOp.cmpi .eq (BitVec.ofNat 32 r) rowsk) erk zero)
      = if r = 0 then cenk else if rowsk.toInt = (r : Int) then erk else zero := by
  rw [select_cmpi_eq, select_cmpi_eq]
  by_cases h0 : r = 0
  · rw [if_pos ((ofNat_eq_zero_iff r (by omega)).mpr h0), if_pos h0]
  · rw [if_neg (fun e => h0 ((ofNat_eq_zero_iff r (by omega)).mp e)), if_neg h0]
    by_cases h1 : rowsk.toInt = (r : Int)
    · rw [if_pos ((ofNat_eq_iff_toInt r hr rowsk).mpr h1), if_pos h1]
    · rw [if_neg (fun e => h1 ((ofNat_eq_iff_toInt r hr rowsk).mp e)), if_neg h1]

/-- Row r = 128·t + a of the matrix, as the kernel forms its word: the position a inside a block of 128 rows plus the
    block number times 128. -/
theorem row_word (t a : Nat) (h : 128 * t + a < 2 ^ 32) :
    IntOp.addi (BitVec.ofNat 32 a) (Scalar.muli (BitVec.ofNat 32 t) 128#32) = BitVec.ofNat 32 (128 * t + a) := by
  apply BitVec.eq_of_toNat_eq
  show (BitVec.ofNat 32 a + BitVec.ofNat 32 t * 128#32).toNat = _
  simp only [BitVec.toNat_add, BitVec.toNat_mul, BitVec.toNat_ofNat]
  omega

/-! ## Counting a negative index from the end -/

/-- A word that, read signed, is not negative is left as it is by the normalisation. -/
theorem norm_of_nonneg (w off z : BitVec 32) (hz : z = 0#32) (hw : 0 ≤ w.toInt) :
    Scalar.select (IntOp.cmpi .slt w z) (IntOp.addi w off) w = w := by
  subst hz
  have h0I : (0#32 : BitVec 32).toInt = 0 := by decide
  have hc : IntOp.cmpi .slt w 0#32 ≠ 1#1 := fun h => by
    have := (Cert.TakeFill.cmpi_slt_iff _ _).1 h
    rw [h0I] at this
    omega
  exact if_neg hc

/-! ## The two assignments -/

/-- A vector as an [C, 1] column, read at (k, 0). -/
theorem col_apply {β : Type} (hb : (⟨1, ![C]⟩ : Shape).BroadcastsInDim ⟨2, ![C, 1]⟩ ![0])
    (v : (⟨1, ![C]⟩ : Shape).Idx → β) (k : Fin C) :
    broadcastInDim ⟨2, ![C, 1]⟩ ![0] hb v (ix2 k (0 : Fin 1)) = v (ix1 k) := by
  have e1 : (ix2 k (0 : Fin 1) : (⟨2, ![C, 1]⟩ : Shape).Idx) = StableHlo.Predicate.ixP k := by
    funext a; match a with | ⟨0, _⟩ => rfl | ⟨1, _⟩ => rfl
  have e2 : (Shape.Idx.ofFin k : (⟨1, ![C]⟩ : Shape).Idx) = ix1 k := by
    funext a; match a with | ⟨0, _⟩ => rfl
  rw [e1, StableHlo.Predicate.bcast_col1 hb v k, e2]

/-- THE TWO ASSIGNMENTS ARE THE MATRIX, when every row number is at least 1: zeros, row 0 set to the centre, then cell
    (rows'(k), k) set to error(k), the pairs laid out as an [C, 2] array of two normalised columns. -/
theorem assignments_eq_zono (hR : 0 < R) (hC : C < 2 ^ 31)
    (wf1 : ScatterDims.WF ⟨2, ![R, C]⟩ ⟨1, ![1]⟩ ⟨1, ![C]⟩ [0] [0] [0] 0)
    (wf2 : ScatterDims.WF ⟨2, ![R, C]⟩ ⟨2, ![C, 2]⟩ ⟨1, ![C]⟩ [] [0, 1] [0, 1] 1)
    (hb : (⟨1, ![C]⟩ : Shape).BroadcastsInDim ⟨2, ![C, 1]⟩ ![0])
    (hcat : Shape.Concatenates [(⟨2, ![C, 1]⟩ : Shape), ⟨2, ![C, 1]⟩] ⟨2, ![C, 2]⟩ 1)
    (cen er : (⟨1, ![C]⟩ : Shape).Idx → α) (zero : α) (rows : IVec ⟨1, ![C]⟩ 32) (hrows : ∀ k, 1 ≤ (rows k).toInt)
    (z : (⟨2, ![R, C]⟩ : Shape).Idx → α) (hz : ∀ i, z i = zero)
    (i0 : IVec ⟨1, ![1]⟩ 32) (hi0 : ∀ k, i0 k = 0#32)
    (zr offr zc offc : IVec ⟨1, ![C]⟩ 32) (hzr : ∀ k, zr k = 0#32) (hzc : ∀ k, zc k = 0#32) :
    Host.scatter (Cert.SparseMM.cellDims R C C wf2) (fun _ b => b)
        (Host.scatter (Cert.ScatterSet.rowSetDims R C wf1) (fun _ b => b) z i0 cen)
        (concatenate ⟨2, ![C, 2]⟩ 1
          [⟨⟨2, ![C, 1]⟩, broadcastInDim ⟨2, ![C, 1]⟩ ![0] hb (select (cmpi .slt rows zr) (addi rows offr) rows)⟩,
           ⟨⟨2, ![C, 1]⟩, broadcastInDim ⟨2, ![C, 1]⟩ ![0] hb
              (select (cmpi .slt (iotaInDim ⟨1, ![C]⟩ 32 0) zc) (addi (iotaInDim ⟨1, ![C]⟩ 32 0) offc) (iotaInDim ⟨1, ![C]⟩ 32 0))⟩]
          hcat)
        er
      = zono cen er zero rows := by
  funext i
  obtain ⟨r, c, rfl⟩ : ∃ (r : Fin R) (c : Fin C), i = ix2 r c := ⟨i 0, i 1, eq_ix2 i⟩
  -- the pairs, entry by entry
  have hpair0 : ∀ k : Fin C, (concatenate ⟨2, ![C, 2]⟩ 1
          [⟨⟨2, ![C, 1]⟩, broadcastInDim ⟨2, ![C, 1]⟩ ![0] hb (select (cmpi .slt rows zr) (addi rows offr) rows)⟩,
           ⟨⟨2, ![C, 1]⟩, broadcastInDim ⟨2, ![C, 1]⟩ ![0] hb
              (select (cmpi .slt (iotaInDim ⟨1, ![C]⟩ 32 0) zc) (addi (iotaInDim ⟨1, ![C]⟩ 32 0) offc) (iotaInDim ⟨1, ![C]⟩ 32 0))⟩]
          hcat) (ix2 k (0 : Fin 2)) = rows (ix1 k) := by
    intro k
    rw [Cert.ConcatCols.concatenate_cols_apply (a := 1) (b := 1) rfl _ _ hcat k (0 : Fin 2),
      dif_pos (show ((0 : Fin 2) : Fin 2).val < 1 by decide)]
    show broadcastInDim ⟨2, ![C, 1]⟩ ![0] hb (select (cmpi .slt rows zr) (addi rows offr) rows) (ix2 k (0 : Fin 1)) = _
    rw [col_apply hb _ k]
    exact norm_of_nonneg _ _ _ (hzr _) (by have := hrows (ix1 k); omega)
  have hpair1 : ∀ k : Fin C, (concatenate ⟨2, ![C, 2]⟩ 1
          [⟨⟨2, ![C, 1]⟩, broadcastInDim ⟨2, ![C, 1]⟩ ![0] hb (select (cmpi .slt rows zr) (addi rows offr) rows)⟩,
           ⟨⟨2, ![C, 1]⟩, broadcastInDim ⟨2, ![C, 1]⟩ ![0] hb
              (select (cmpi .slt (iotaInDim ⟨1, ![C]⟩ 32 0) zc) (addi (iotaInDim ⟨1, ![C]⟩ 32 0) offc) (iotaInDim ⟨1, ![C]⟩ 32 0))⟩]
          hcat) (ix2 k (1 : Fin 2)) = BitVec.ofNat 32 k.val := by
    intro k
    rw [Cert.ConcatCols.concatenate_cols_apply (a := 1) (b := 1) rfl _ _ hcat k (1 : Fin 2),
      dif_neg (show ¬ ((1 : Fin 2) : Fin 2).val < 1 by decide)]
    show broadcastInDim ⟨2, ![C, 1]⟩ ![0] hb (select (cmpi .slt (iotaInDim ⟨1, ![C]⟩ 32 0) zc)
      (addi (iotaInDim ⟨1, ![C]⟩ 32 0) offc) (iotaInDim ⟨1, ![C]⟩ 32 0)) (ix2 k (0 : Fin 1)) = _
    rw [col_apply hb _ k]
    show Scalar.select (IntOp.cmpi .slt (BitVec.ofNat 32 k.val) (zc (ix1 k))) (IntOp.addi (BitVec.ofNat 32 k.val) (offc (ix1 k)))
      (BitVec.ofNat 32 k.val) = _
    exact norm_of_nonneg _ _ _ (hzc _) (by
      rw [StableHlo.Predicate.toInt_ofNat_small k.val (by have := k.isLt; omega)]; exact Int.natCast_nonneg _)
  rw [Cert.ScatterSet.scatter_cells_diag_apply wf2 _ _ er (fun k => by
      rw [hpair1 k]; exact StableHlo.Predicate.toInt_ofNat_small k.val (by have := k.isLt; omega)) r c,
    hpair0 c, zono_apply,
    Cert.ScatterSet.scatter_row_set_apply wf1 z i0 cen ⟨0, hR⟩ (by rw [hi0]; rfl) r c, hz]
  have h1 := hrows (ix1 c)
  by_cases h0 : r.val = 0
  · rw [if_pos h0, if_neg (by omega), if_pos (Fin.ext h0)]
  · rw [if_neg h0, if_neg (fun e : r = ⟨0, hR⟩ => h0 (congrArg Fin.val e))]

end Cert.Zono

end
-- ==== Proof.KernelValue.lean ====
/-
  What the kernel leaves in its result.

  The kernel's host prefix computes, from the image, the same centre, error magnitude, selection mask and row numbers as
  the reference (the mask taken after flattening rather than before), and hands the three length-N vectors to the
  pallas_call as [1, N] rows. Grid point t fills rows 128·t … 128·t + 127 of a [12416, N] matrix: entry (a, k) of its block
  compares the word of the row number 128·t + a with 0 and with rows(k) and selects centre(k), error(k) or zero. The 97
  blocks tile the matrix, so the whole matrix is one function `G` of the three rows; the first N + 1 rows of it are the
  zonotope matrix, and the program's result is their reshape.
-/
import proofs.«117034_j26998164423199_1_alg».proof.Proof.FrameKernelIdeal
import proofs.«117034_j26998164423199_1_alg».proof.Proof.Zono
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KValue

open Cert.KernelIdeal Cert.KernelIdeal.Gen Cert.KernelIdeal.GenP Idealize.ShloMosaic Idealize.ShloMosaic.TcCoe Idealize.SL.Sem
  Idealize.ShloMosaic.ValueIdx
open Idealize.ShloMosaic.Pipeline (Dat)

variable {F : FTy → Type} [FloatOps F]

/-! ## One entry of a block -/

theorem hz : (![0, 0] : Fin 2 → Nat) = fun _ => 0 := funext fun a => by fin_cases a <;> rfl

/-- The word the body forms for row a of the block at grid coordinates i: the position inside the block plus 128 times
    the block number. -/
def rowWord (i : grid0.Coords) (a : Fin 128) : BitVec 32 :=
  IntOp.addi (BitVec.ofNat 32 a.val) (Scalar.muli (BitVec.ofNat 32 (i 0).val) 128#32)

/-- Entry (a, k) of a block, from a row word and the three rows' entries k: two compares, two selects. -/
def entry (w : BitVec 32) (ck ek : F .f32) (rk : BitVec 32) : F .f32 :=
  Scalar.select (IntOp.cmpi .eq w 0#32) ck (Scalar.select (IntOp.cmpi .eq w rk) ek (Scalar.ofBits .f32 0x00000000#32))

/-- A [1, N] row cast to itself twice and laid over 128 rows reads, at (a, k), the row's entry k. -/
theorem row2_apply {α : Type} (v : S1x12288.Idx → α) (a : Fin 128) (k : Fin 12288) :
    broadcastTo S128x12288 (shapeCast S1x12288 (shapeCast S1x12288 v shapeCasts_S1x12288_S1x12288) shapeCasts_S1x12288_S1x12288)
      broadcasts_S1x12288_S128x12288 (ix2 a k) = v (ix2 (0 : Fin 1) k) := by
  rw [shapeCast_self, shapeCast_self]
  exact broadcastTo_1b_ab_apply v _ a k

/-- The same with one cast. -/
theorem row1_apply {α : Type} (v : S1x12288.Idx → α) (a : Fin 128) (k : Fin 12288) :
    broadcastTo S128x12288 (shapeCast S1x12288 v shapeCasts_S1x12288_S1x12288) broadcasts_S1x12288_S128x12288 (ix2 a k)
      = v (ix2 (0 : Fin 1) k) := by
  rw [shapeCast_self]
  exact broadcastTo_1b_ab_apply v _ a k

/-- The row counter of a block reads, at (a, k), the word of a. -/
theorem iota_apply (a : Fin 128) (k : Fin 12288) :
    iota .tc S128x12288 32 [0] iota_S128x12288_d0_w32 (ix2 a k) = BitVec.ofNat 32 a.val := by
  show BitVec.ofNat 32 (0 * 128 + a.val) = _
  rw [Nat.zero_mul, Nat.zero_add]

/-- THE BODY'S STORED VALUE at (a, k): `entry` of the row word and the three loaded rows at k. -/
theorem pay_apply (i : grid0.Coords) (v4 v6 : Vec F S1x12288 .f32) (v8 : Vec F S1x12288 .i32) (a : Fin 128) (k : Fin 12288) :
    k0_pay1 i v4 v6 v8 (ix2 a k) = entry (rowWord i a) (v4 (ix2 (0 : Fin 1) k)) (v6 (ix2 (0 : Fin 1) k)) (v8 (ix2 (0 : Fin 1) k)) := by
  show Scalar.select (IntOp.cmpi .eq (IntOp.addi (iota .tc S128x12288 32 [0] iota_S128x12288_d0_w32 (ix2 a k))
          (Scalar.muli (BitVec.ofNat 32 (i 0).val) 128#32)) 0#32)
      (broadcastTo S128x12288 (shapeCast S1x12288 (shapeCast S1x12288 v4 shapeCasts_S1x12288_S1x12288) shapeCasts_S1x12288_S1x12288)
        broadcasts_S1x12288_S128x12288 (ix2 a k))
      (Scalar.select (IntOp.cmpi .eq (IntOp.addi (iota .tc S128x12288 32 [0] iota_S128x12288_d0_w32 (ix2 a k))
            (Scalar.muli (BitVec.ofNat 32 (i 0).val) 128#32))
          (broadcastTo S128x12288 (shapeCast S1x12288 v8 shapeCasts_S1x12288_S1x12288) broadcasts_S1x12288_S128x12288 (ix2 a k)))
        (broadcastTo S128x12288 (shapeCast S1x12288 (shapeCast S1x12288 v6 shapeCasts_S1x12288_S1x12288) shapeCasts_S1x12288_S1x12288)
          broadcasts_S1x12288_S128x12288 (ix2 a k))
        (Scalar.ofBits .f32 0x00000000#32)) = _
  rw [iota_apply, row2_apply, row2_apply, row1_apply]
  rfl

/-- What the body leaves in the output block, at (a, k). -/
theorem out_apply (i : grid0.Coords) (x0 x1 : Vec F S1x12288 .f32) (x2 : Vec F S1x12288 .i32) (a : Fin 128) (k : Fin 12288) :
    out0_3 i x0 x1 x2 (ix2 a k) = entry (rowWord i a) (x0 (ix2 (0 : Fin 1) k)) (x1 (ix2 (0 : Fin 1) k)) (x2 (ix2 (0 : Fin 1) k)) := by
  unfold out0_3
  rw [View.canon_unit_zero hz]
  simp only [View.ld_unit_zero (S := S1x12288) hz]
  exact pay_apply i x0 x1 x2 a k

/-! ## The whole matrix -/

/-- The [12416, N] matrix as one function of the three rows: entry (r, k) is `entry` of the word of r. -/
def G (A0 A1 : Vec F S1x12288 .f32) (A2 : Vec F S1x12288 .i32) : S12416x12288.Idx → Elt F .f32 :=
  fun J => entry (BitVec.ofNat 32 (J 0).val) (A0 (ix2 (0 : Fin 1) (J 1))) (A1 (ix2 (0 : Fin 1) (J 1))) (A2 (ix2 (0 : Fin 1) (J 1)))

/-- A block's entry is the matrix's, when the block's rows are the matrix's rows 128·(block number) + a and the loaded
    rows are the three arrays' rows. -/
theorem block_eq (i : grid0.Coords) (hi : (i 0).val < 97) (b0 b1 : Vec F S1x12288 .f32) (b2 : Vec F S1x12288 .i32)
    (A0 A1 : Vec F S1x12288 .f32) (A2 : Vec F S1x12288 .i32)
    (h0 : ∀ k : Fin 12288, b0 (ix2 (0 : Fin 1) k) = A0 (ix2 (0 : Fin 1) k))
    (h1 : ∀ k : Fin 12288, b1 (ix2 (0 : Fin 1) k) = A1 (ix2 (0 : Fin 1) k))
    (h2 : ∀ k : Fin 12288, b2 (ix2 (0 : Fin 1) k) = A2 (ix2 (0 : Fin 1) k))
    (j : S128x12288.Idx) (J : S12416x12288.Idx) (hrow : (J 0).val = 128 * (i 0).val + (j 0).val) (hcol : J 1 = j 1) :
    out0_3 i b0 b1 b2 j = G A0 A1 A2 J := by
  obtain ⟨a, k, rfl⟩ : ∃ (a : Fin 128) (k : Fin 12288), j = ix2 a k := ⟨j 0, j 1, eq_ix2 j⟩
  have hrow' : (J 0).val = 128 * (i 0).val + a.val := hrow
  have hcol' : J 1 = k := hcol
  rw [out_apply, h0, h1, h2]
  unfold G
  rw [hcol', hrow', ← Cert.Zono.row_word (i 0).val a.val (by have := a.isLt; omega)]
  rfl

variable (m : (ℓ : Loc nD τ sig) → Buf (Elt F) ℓ) (ρ : Dev nD → PrngReg)

/-- The printed index maps, decided over the 97 grid points: the three inputs are one block each, the output's block
    number is the grid coordinate, which is the point's number. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = ((grid0.coords t) 0).val ∧ win0_3.index t (1 : Fin 2) = 0
    ∧ ((grid0.coords t) 0).val = t.val :=
  (by decide +kernel : ∀ t : Fin grid0.N, _)

/-- WHAT POINT t WRITES BACK is block t of `G` of the three arrays as the region finds them. -/
theorem flushed_eq (c : Dev nD) (t : Fin cfg0.N) :
    (dats m 0 c).flushed 3 t
      = ((cfg0.win 3).blk t).view.read (Elt F) (G (V m c main_v22) (V m c main_v23) (V m c main_v24)) := by
  show (cfg0.win 3).cut (grid0.coords t) ((dats m 0 c).after 3 t) = _
  rw [after0_3]
  obtain ⟨e00, e01, e10, e11, e20, e21, e30, e31, ect⟩ := idx_facts t
  have ht : t.val < 97 := by have h1 := t.isLt; have h2 : cfg0.N = 97 := N_0; omega
  funext j
  show out0_3 (grid0.coords t) (iblk m c 0 t) (iblk m c 1 t) (iblk m c 2 t) j
    = G (V m c main_v22) (V m c main_v23) (V m c main_v24) (((cfg0.win 3).blk t).view.emb j)
  refine block_eq (grid0.coords t) (by rw [ect]; exact ht) (iblk m c 0 t) (iblk m c 1 t) (iblk m c 2 t)
    (V m c main_v22) (V m c main_v23) (V m c main_v24) ?_ ?_ ?_ j (((cfg0.win 3).blk t).view.emb j) ?_ ?_
  · intro k
    show V m c main_v22 (((cfg0.win 0).blk t).view.emb (ix2 (0 : Fin 1) k)) = V m c main_v22 (ix2 (0 : Fin 1) k)
    refine congrArg (V m c main_v22) (funext fun a => Fin.ext ?_)
    match a with
    | ⟨0, _⟩ => show win0_0.index t (0 : Fin 2) * 1 + 1 * 0 = 0; omega
    | ⟨1, _⟩ => show win0_0.index t (1 : Fin 2) * 12288 + 1 * k.val = k.val; omega
  · intro k
    show V m c main_v23 (((cfg0.win 1).blk t).view.emb (ix2 (0 : Fin 1) k)) = V m c main_v23 (ix2 (0 : Fin 1) k)
    refine congrArg (V m c main_v23) (funext fun a => Fin.ext ?_)
    match a with
    | ⟨0, _⟩ => show win0_1.index t (0 : Fin 2) * 1 + 1 * 0 = 0; omega
    | ⟨1, _⟩ => show win0_1.index t (1 : Fin 2) * 12288 + 1 * k.val = k.val; omega
  · intro k
    show V m c main_v24 (((cfg0.win 2).blk t).view.emb (ix2 (0 : Fin 1) k)) = V m c main_v24 (ix2 (0 : Fin 1) k)
    refine congrArg (V m c main_v24) (funext fun a => Fin.ext ?_)
    match a with
    | ⟨0, _⟩ => show win0_2.index t (0 : Fin 2) * 1 + 1 * 0 = 0; omega
    | ⟨1, _⟩ => show win0_2.index t (1 : Fin 2) * 12288 + 1 * k.val = k.val; omega
  · show win0_3.index t (0 : Fin 2) * 128 + 1 * (j 0).val = 128 * ((grid0.coords t) 0).val + (j 0).val
    omega
  · refine Fin.ext ?_
    show win0_3.index t (1 : Fin 2) * 12288 + 1 * (j 1).val = (j 1).val
    omega

/-- An index of the matrix is in point t's block iff each coordinate is in the block's range on its axis. -/
theorem mem_blk (t : Fin cfg0.N) (i : S12416x12288.Idx) :
    i ∈ ((cfg0.win 3).blk t).view.set ↔ ∀ a : Fin 2, win0_3.index t a * S128x12288.size a ≤ (i a).val
      ∧ (i a).val < win0_3.index t a * S128x12288.size a + S128x12288.size a := by
  show i ∈ ((View.whole main_v25).slice (win0_3.rect t)).set ↔ _
  rw [View.set_slice_whole, Rect.mem_set_unit]
  exact Iff.rfl

/-- Every row of the matrix is in the block of the point numbered row / 128. -/
theorem cover (i : S12416x12288.Idx) :
    ∃ t : Fin cfg0.N, (cfg0.win 3).flush t = true ∧ i ∈ ((cfg0.win 3).blk t).view.set := by
  have hi0 : (i 0).val < 12416 := (i 0).isLt
  have hi1 : (i 1).val < 12288 := (i 1).isLt
  have hN : cfg0.N = 97 := N_0
  have hlt : (i 0).val / 128 < cfg0.N := by rw [hN]; omega
  obtain ⟨e00, e01, e10, e11, e20, e21, e30, e31, ect⟩ := idx_facts ⟨(i 0).val / 128, hlt⟩
  refine ⟨⟨(i 0).val / 128, hlt⟩, flush0_3 _, ?_⟩
  rw [mem_blk]
  intro a
  match a with
  | ⟨0, _⟩ =>
    show win0_3.index ⟨(i 0).val / 128, hlt⟩ (0 : Fin 2) * 128 ≤ (i 0).val
      ∧ (i 0).val < win0_3.index ⟨(i 0).val / 128, hlt⟩ (0 : Fin 2) * 128 + 128
    rw [e30, ect]
    show (i 0).val / 128 * 128 ≤ (i 0).val ∧ (i 0).val < (i 0).val / 128 * 128 + 128
    omega
  | ⟨1, _⟩ =>
    show win0_3.index ⟨(i 0).val / 128, hlt⟩ (1 : Fin 2) * 12288 ≤ (i 1).val
      ∧ (i 1).val < win0_3.index ⟨(i 0).val / 128, hlt⟩ (1 : Fin 2) * 12288 + 12288
    rw [e31]
    omega

/-- THE MATRIX after the region: `G` of the three arrays. -/
theorem final (c : Dev nD) :
    (dats m 0 c).arrAt 3 cfg0.N = G (V m c main_v22) (V m c main_v23) (V m c main_v24) :=
  (dats m 0 c).arrAt_eq_of_cover 3 _ (fun t _ => flushed_eq m c t) cover

/-! ## The host prefix: the three rows as functions of the image -/

/-- A scalar constant laid over the image. -/
def splat3 (w : BitVec 32) : (⟨S3x64x64, .f32⟩ : BufTy).Contents (Elt F) :=
  broadcastInDim S3x64x64 ![] bcast_S_S3x64x64 (constant S_ .f32 w)
/-- Half the amount by which a pixel lies below 0.1. -/
def lo3 (x : (⟨S3x64x64, .f32⟩ : BufTy).Contents (Elt F)) : (⟨S3x64x64, .f32⟩ : BufTy).Contents (Elt F) :=
  mulf (maximumf (subf (splat3 0x3DCCCCCD#32) x) (splat3 0x00000000#32)) (splat3 0x3F000000#32)
/-- Half the amount by which it lies above 0.9. -/
def hi3 (x : (⟨S3x64x64, .f32⟩ : BufTy).Contents (Elt F)) : (⟨S3x64x64, .f32⟩ : BufTy).Contents (Elt F) :=
  mulf (maximumf (subf x (splat3 0x3F666666#32)) (splat3 0x00000000#32)) (splat3 0x3F000000#32)
/-- The centre. -/
def cen3 (x : (⟨S3x64x64, .f32⟩ : BufTy).Contents (Elt F)) : (⟨S3x64x64, .f32⟩ : BufTy).Contents (Elt F) := subf (addf x (lo3 x)) (hi3 x)
/-- The error magnitude. -/
def err3 (x : (⟨S3x64x64, .f32⟩ : BufTy).Contents (Elt F)) : (⟨S3x64x64, .f32⟩ : BufTy).Contents (Elt F) := subf (subf (splat3 0x3DCCCCCD#32) (lo3 x)) (hi3 x)
/-- The centre and the error magnitude, flattened. -/
def cen1 (x : (⟨S3x64x64, .f32⟩ : BufTy).Contents (Elt F)) : (⟨S12288, .f32⟩ : BufTy).Contents (Elt F) := shapeCast S12288 (cen3 x) shapeCasts_S3x64x64_S12288
def err1 (x : (⟨S3x64x64, .f32⟩ : BufTy).Contents (Elt F)) : (⟨S12288, .f32⟩ : BufTy).Contents (Elt F) := shapeCast S12288 (err3 x) shapeCasts_S3x64x64_S12288
/-- The selection mask, taken on the flattened error magnitude. -/
def mask1 (x : (⟨S3x64x64, .f32⟩ : BufTy).Contents (Elt F)) : (⟨S12288, .i1⟩ : BufTy).Contents (Elt F) :=
  cmpf .oge (err1 x) (broadcastInDim S12288 ![] bcast_S_S12288 (constant S_ .f32 0x00000000#32))
/-- The row numbers: the running count of the mask where it is set, N + 1 elsewhere. -/
def rows1 (x : (⟨S3x64x64, .f32⟩ : BufTy).Contents (Elt F)) : (⟨S12288, .i32⟩ : BufTy).Contents (Elt F) :=
  select (mask1 x)
    (Host.reduceWindow IntOp.addi ![12288] ![1] ![12287] ![0] (extui 32 (mask1 x) natLt_1_32)
      (broadcastInDim S_ ![] bcast_S_S_ (constantI S_ 32 0#32)) reduceWindows_S12288_S12288_w12288s1p12287_0 h_S_)
    (broadcastInDim S12288 ![] bcast_S_S12288 (id (constantI S_ 32 12289#32)))

attribute [local irreducible] Host.reduceWindow in
set_option maxRecDepth 8192 in
set_option maxHeartbeats 1000000 in
/-- The three window arrays as the region finds them. -/
theorem V_rows (c : Dev nD) :
    V m c main_v22 = shapeCast S1x12288 (cen1 (m ((c : Thread nD τ).loc main_arg0))) shapeCasts_S12288_S1x12288
    ∧ V m c main_v23 = shapeCast S1x12288 (err1 (m ((c : Thread nD τ).loc main_arg0))) shapeCasts_S12288_S1x12288
    ∧ V m c main_v24 = shapeCast S1x12288 (rows1 (m ((c : Thread nD τ).loc main_arg0))) shapeCasts_S12288_S1x12288 := by
  refine ⟨?_, ?_, ?_⟩
  all_goals
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    after_results_simp
    rfl

/-! ## The first N + 1 rows are the zonotope matrix -/

/-- The slice of `G` of three [1, N] rows made from length-N vectors is the zonotope matrix of those vectors. -/
theorem slice_G (cen er : S12288.Idx → Elt F .f32) (rows : IVec S12288 32) :
    extractStridedSlice S12289x12288 ![0, 0]
        (G (shapeCast S1x12288 cen shapeCasts_S12288_S1x12288) (shapeCast S1x12288 er shapeCasts_S12288_S1x12288)
          (shapeCast S1x12288 rows shapeCasts_S12288_S1x12288)) slices_S12416x12288_S12289x12288_0_0
      = Cert.Zono.zono cen er (Scalar.ofBits .f32 0x00000000#32) rows := by
  funext i
  obtain ⟨r, k, rfl⟩ : ∃ (r : Fin 12289) (k : Fin 12288), i = ix2 r k := ⟨i 0, i 1, eq_ix2 i⟩
  rw [extractStridedSlice_apply ![0, 0] _ slices_S12416x12288_S12289x12288_0_0 (ix2 r k)
    (ix2 (⟨r.val, by have := r.isLt; omega⟩ : Fin 12416) k) (fun a => by
      match a with
      | ⟨0, _⟩ => show r.val = 0 + r.val; omega
      | ⟨1, _⟩ => show k.val = 0 + k.val; omega)]
  show entry (BitVec.ofNat 32 r.val) (shapeCast S1x12288 cen shapeCasts_S12288_S1x12288 (ix2 (0 : Fin 1) k))
    (shapeCast S1x12288 er shapeCasts_S12288_S1x12288 (ix2 (0 : Fin 1) k))
    (shapeCast S1x12288 rows shapeCasts_S12288_S1x12288 (ix2 (0 : Fin 1) k)) = _
  rw [shapeCast_a_1a_apply, shapeCast_a_1a_apply, shapeCast_a_1a_apply, Cert.Zono.zono_apply]
  exact Cert.Zono.select_entry r.val (by have := r.isLt; omega) _ _ _ _

/-! ## The run -/

/-- The kernel's result as a function of the image: the zonotope matrix of the flattened centre, error magnitude and row
    numbers, reshaped. -/
def kOut (x : (⟨S3x64x64, .f32⟩ : BufTy).Contents (Elt F)) : (⟨S12289x3x64x64, .f32⟩ : BufTy).Contents (Elt F) :=
  shapeCast S12289x3x64x64 (Cert.Zono.zono (R := 12289) (cen1 x) (err1 x) (Scalar.ofBits .f32 0x00000000#32) (rows1 x))
    shapeCasts_S12289x12288_S12289x3x64x64

/-- The two host lines after the region, from the matrix: its first N + 1 rows, reshaped. -/
theorem tail_eq (c : Dev nD) :
    Pipeline.afterTail₀ cfgs (dats m) 0 (V0 m) [hostOps1] c main_v27 = kOut (m ((c : Thread nD τ).loc main_arg0)) := by
  unfold Pipeline.afterTail₀
  show StableHlo.after hostOps1 _ (Proc.devRef .tc main_v27) = _
  after_results
  rw [show Pipeline.withArrays (cfgs 0).spec c (V0 m c) (fun w => (dats m 0 c).arrAt w (cfgs 0).N) (Proc.devRef .tc main_v25)
      = G (V m c main_v22) (V m c main_v23) (V m c main_v24) from
    (Pipeline.withArrays_arr spec0 launch0.win.arr_inj c _ _ 3).trans (final m c)]
  obtain ⟨h22, h23, h24⟩ := V_rows m c
  rw [h22, h23, h24, slice_G]
  rfl

/-- THE KERNEL'S RUN: from any memory with zero counters it terminates, the result buffer at `kOut` of the image, the
    image unchanged. -/
theorem run : θ_run defs (onTc (τ := τ) (main (F := F))) ⟨m, fun _ => 0, ρ⟩ fun r => ∀ c : Dev nD,
      r.2.mem ((c.tc : Thread nD τ).loc main_v27) = kOut (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v27 (Pipeline.mem_restRefs_of main_v27 (by decide) (by decide))).trans (tail_eq m c),
       ((h c).2 main_arg0 (Pipeline.mem_restRefs_of main_arg0 (by decide) (by decide))).trans (W_main_arg0 m (dats m) c)⟩)
    (run_main m ρ)

end Cert.KernelIdeal.KValue

end
-- ==== Proof.RefRun.lean ====
/-
  The reference's run, read back.

  The reference is a straight line of host operations: the clipped centre and the error magnitude of every pixel, the
  selection mask err ≥ 0 flattened, its running count (one windowed sum), the row numbers (the count where the mask is
  set, R = N + 1 where it is not), then a matrix of zeros whose row 0 is set to the flattened centre and whose cell
  (row(k), k) is set to the flattened error, negative indices counted from the end; last a reshape. Listed in order, with
  the four helper functions' bodies written at their call sites, the program is the sequence of that list; from any
  memory with zero counters it terminates with the result buffer at `refOut` of the argument and the argument unchanged.
-/
import proofs.«117034_j26998164423199_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's 63 operations, in order: its own, and each helper's at its call. -/
abbrev ops : List (HloOp τ sig (Elt F)) :=
  [ StableHlo.nullary main_cst (constant S_ .f32 0x3DCCCCCD#32),
    StableHlo.unary main_cst main_v0 (broadcastInDim S3x64x64 ![] bcast_S_S3x64x64 : (⟨S_, .f32⟩ : BufTy).Contents (Elt F) → (⟨S3x64x64, .f32⟩ : BufTy).Contents (Elt F)),
    StableHlo.binary main_v0 main_arg0 main_v1 (subf : (⟨S3x64x64, .f32⟩ : BufTy).Contents (Elt F) → (⟨S3x64x64, .f32⟩ : BufTy).Contents (Elt F) → (⟨S3x64x64, .f32⟩ : BufTy).Contents (Elt F)),
    StableHlo.TRef.nullary main_call0.cst (constant S_ .f32 0x00000000#32),
    StableHlo.TRef.unary main_call0.cst main_call0.v0 (broadcastInDim S3x64x64 ![] bcast_S_S3x64x64),
    StableHlo.TRef.binary (.of main_v1 : StableHlo.TRef sig ⟨S3x64x64, .f32⟩) main_call0.v0 main_call0.v1 maximumf,
    StableHlo.nullary main_cst_0 (constant S_ .f32 0x3F000000#32),
    StableHlo.unary main_cst_0 main_v3 (broadcastInDim S3x64x64 ![] bcast_S_S3x64x64 : (⟨S_, .f32⟩ : BufTy).Contents (Elt F) → (⟨S3x64x64, .f32⟩ : BufTy).Contents (Elt F)),
    StableHlo.binary main_v2 main_v3 main_v4 (mulf : (⟨S3x64x64, .f32⟩ : BufTy).Contents (Elt F) → (⟨S3x64x64, .f32⟩ : BufTy).Contents (Elt F) → (⟨S3x64x64, .f32⟩ : BufTy).Contents (Elt F)),
    StableHlo.nullary main_cst_1 (constant S_ .f32 0x3F666666#32),
    StableHlo.unary main_cst_1 main_v5 (broadcastInDim S3x64x64 ![] bcast_S_S3x64x64 : (⟨S_, .f32⟩ : BufTy).Contents (Elt F) → (⟨S3x64x64, .f32⟩ : BufTy).Contents (Elt F)),
    StableHlo.binary main_arg0 main_v5 main_v6 (subf : (⟨S3x64x64, .f32⟩ : BufTy).Contents (Elt F) → (⟨S3x64x64, .f32⟩ : BufTy).Contents (Elt F) → (⟨S3x64x64, .f32⟩ : BufTy).Contents (Elt F)),
    StableHlo.TRef.nullary main_call1.cst (constant S_ .f32 0x00000000#32),
    StableHlo.TRef.unary main_call1.cst main_call1.v0 (broadcastInDim S3x64x64 ![] bcast_S_S3x64x64),
    StableHlo.TRef.binary (.of main_v6 : StableHlo.TRef sig ⟨S3x64x64, .f32⟩) main_call1.v0 main_call1.v1 maximumf,
    StableHlo.nullary main_cst_2 (constant S_ .f32 0x3F000000#32),
    StableHlo.unary main_cst_2 main_v8 (broadcastInDim S3x64x64 ![] bcast_S_S3x64x64 : (⟨S_, .f32⟩ : BufTy).Contents (Elt F) → (⟨S3x64x64, .f32⟩ : BufTy).Contents (Elt F)),
    StableHlo.binary main_v7 main_v8 main_v9 (mulf : (⟨S3x64x64, .f32⟩ : BufTy).Contents (Elt F) → (⟨S3x64x64, .f32⟩ : BufTy).Contents (Elt F) → (⟨S3x64x64, .f32⟩ : BufTy).Contents (Elt F)),
    StableHlo.binary main_arg0 main_v4 main_v10 (addf : (⟨S3x64x64, .f32⟩ : BufTy).Contents (Elt F) → (⟨S3x64x64, .f32⟩ : BufTy).Contents (Elt F) → (⟨S3x64x64, .f32⟩ : BufTy).Contents (Elt F)),
    StableHlo.binary main_v10 main_v9 main_v11 (subf : (⟨S3x64x64, .f32⟩ : BufTy).Contents (Elt F) → (⟨S3x64x64, .f32⟩ : BufTy).Contents (Elt F) → (⟨S3x64x64, .f32⟩ : BufTy).Contents (Elt F)),
    StableHlo.nullary main_cst_3 (constant S_ .f32 0x3DCCCCCD#32),
    StableHlo.unary main_cst_3 main_v12 (broadcastInDim S3x64x64 ![] bcast_S_S3x64x64 : (⟨S_, .f32⟩ : BufTy).Contents (Elt F) → (⟨S3x64x64, .f32⟩ : BufTy).Contents (Elt F)),
    StableHlo.binary main_v12 main_v4 main_v13 (subf : (⟨S3x64x64, .f32⟩ : BufTy).Contents (Elt F) → (⟨S3x64x64, .f32⟩ : BufTy).Contents (Elt F) → (⟨S3x64x64, .f32⟩ : BufTy).Contents (Elt F)),
    StableHlo.binary main_v13 main_v9 main_v14 (subf : (⟨S3x64x64, .f32⟩ : BufTy).Contents (Elt F) → (⟨S3x64x64, .f32⟩ : BufTy).Contents (Elt F) → (⟨S3x64x64, .f32⟩ : BufTy).Contents (Elt F)),
    StableHlo.nullary main_cst_4 (constant S_ .f32 0x00000000#32),
    StableHlo.unary main_cst_4 main_v15 (broadcastInDim S3x64x64 ![] bcast_S_S3x64x64 : (⟨S_, .f32⟩ : BufTy).Contents (Elt F) → (⟨S3x64x64, .f32⟩ : BufTy).Contents (Elt F)),
    StableHlo.binary main_v14 main_v15 main_v16 (cmpf .oge : (⟨S3x64x64, .f32⟩ : BufTy).Contents (Elt F) → (⟨S3x64x64, .f32⟩ : BufTy).Contents (Elt F) → (⟨S3x64x64, .i1⟩ : BufTy).Contents (Elt F)),
    StableHlo.reshape main_v16 main_v17 rfl shapeCasts_S3x64x64_S12288,
    StableHlo.unary main_v17 main_v18 ((extui 32 · natLt_1_32) : (⟨S12288, .i1⟩ : BufTy).Contents (Elt F) → (⟨S12288, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v18 : StableHlo.TRef sig ⟨S12288, .i32⟩) main_call2.call0.v0 main_call2.call0.v1 (fun x v => Host.reduceWindow IntOp.addi ![12288] ![1] ![12287] ![0] x v reduceWindows_S12288_S12288_w12288s1p12287_0 h_S_),
    StableHlo.nullary main_c (constantI S_ 32 12289#32),
    StableHlo.TRef.unary (.of main_c : StableHlo.TRef sig ⟨S_, .i32⟩) main_call3.v0 id,
    StableHlo.TRef.unary main_call3.v0 main_call3.v1 (broadcastInDim S12288 ![] bcast_S_S12288),
    StableHlo.TRef.ternary (.of main_v17 : StableHlo.TRef sig ⟨S12288, .i1⟩) (.of main_v19 : StableHlo.TRef sig ⟨S12288, .i32⟩) main_call3.v1 main_call3.v2 select,
    StableHlo.nullary main_cst_5 (constant S_ .f32 0x00000000#32),
    StableHlo.unary main_cst_5 main_v21 (broadcastInDim S12289x12288 ![] bcast_S_S12289x12288 : (⟨S_, .f32⟩ : BufTy).Contents (Elt F) → (⟨S12289x12288, .f32⟩ : BufTy).Contents (Elt F)),
    StableHlo.reshape main_v11 main_v22 rfl shapeCasts_S3x64x64_S12288,
    StableHlo.nullary main_c_6 (constantI S_ 32 0#32),
    StableHlo.unary main_c_6 main_v23 (broadcastInDim S1 ![] bcast_S_S1 : (⟨S_, .i32⟩ : BufTy).Contents (Elt F) → (⟨S1, .i32⟩ : BufTy).Contents (Elt F)),
    StableHlo.ternary main_v21 main_v23 main_v22 main_v24 ((fun x i u => Host.scatter scatter_S12289x12288_S1_S12288_0_0_0_0 (fun _ b => b) x i u) : (⟨S12289x12288, .f32⟩ : BufTy).Contents (Elt F) → (⟨S1, .i32⟩ : BufTy).Contents (Elt F) → (⟨S12288, .f32⟩ : BufTy).Contents (Elt F) → (⟨S12289x12288, .f32⟩ : BufTy).Contents (Elt F)),
    StableHlo.nullary main_v25 (iotaInDim S12288 32 0),
    StableHlo.reshape main_v14 main_v26 rfl shapeCasts_S3x64x64_S12288,
    StableHlo.nullary main_c_7 (constantI S_ 32 0#32),
    StableHlo.unary main_c_7 main_v27 (broadcastInDim S12288 ![] bcast_S_S12288 : (⟨S_, .i32⟩ : BufTy).Contents (Elt F) → (⟨S12288, .i32⟩ : BufTy).Contents (Elt F)),
    StableHlo.binary main_v20 main_v27 main_v28 (cmpi .slt : (⟨S12288, .i32⟩ : BufTy).Contents (Elt F) → (⟨S12288, .i32⟩ : BufTy).Contents (Elt F) → (⟨S12288, .i1⟩ : BufTy).Contents (Elt F)),
    StableHlo.nullary main_c_8 (constantI S_ 32 12289#32),
    StableHlo.unary main_c_8 main_v29 (broadcastInDim S12288 ![] bcast_S_S12288 : (⟨S_, .i32⟩ : BufTy).Contents (Elt F) → (⟨S12288, .i32⟩ : BufTy).Contents (Elt F)),
    StableHlo.binary main_v20 main_v29 main_v30 (addi : (⟨S12288, .i32⟩ : BufTy).Contents (Elt F) → (⟨S12288, .i32⟩ : BufTy).Contents (Elt F) → (⟨S12288, .i32⟩ : BufTy).Contents (Elt F)),
    StableHlo.ternary main_v28 main_v30 main_v20 main_v31 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.nullary main_c_9 (constantI S_ 32 0#32),
    StableHlo.unary main_c_9 main_v32 (broadcastInDim S12288 ![] bcast_S_S12288 : (⟨S_, .i32⟩ : BufTy).Contents (Elt F) → (⟨S12288, .i32⟩ : BufTy).Contents (Elt F)),
    StableHlo.binary main_v25 main_v32 main_v33 (cmpi .slt : (⟨S12288, .i32⟩ : BufTy).Contents (Elt F) → (⟨S12288, .i32⟩ : BufTy).Contents (Elt F) → (⟨S12288, .i1⟩ : BufTy).Contents (Elt F)),
    StableHlo.nullary main_c_10 (constantI S_ 32 12288#32),
    StableHlo.unary main_c_10 main_v34 (broadcastInDim S12288 ![] bcast_S_S12288 : (⟨S_, .i32⟩ : BufTy).Contents (Elt F) → (⟨S12288, .i32⟩ : BufTy).Contents (Elt F)),
    StableHlo.binary main_v25 main_v34 main_v35 (addi : (⟨S12288, .i32⟩ : BufTy).Contents (Elt F) → (⟨S12288, .i32⟩ : BufTy).Contents (Elt F) → (⟨S12288, .i32⟩ : BufTy).Contents (Elt F)),
    StableHlo.ternary main_v33 main_v35 main_v25 main_v36 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v31 main_v37 (broadcastInDim S12288x1 ![0] bcast_S12288_S12288x1_0 : (⟨S12288, .i32⟩ : BufTy).Contents (Elt F) → (⟨S12288x1, .i32⟩ : BufTy).Contents (Elt F)),
    StableHlo.unary main_v36 main_v38 (broadcastInDim S12288x1 ![0] bcast_S12288_S12288x1_0 : (⟨S12288, .i32⟩ : BufTy).Contents (Elt F) → (⟨S12288x1, .i32⟩ : BufTy).Contents (Elt F)),
    StableHlo.binary main_v37 main_v38 main_v39 ((fun a b => concatenate S12288x2 1 [⟨S12288x1, a⟩, ⟨S12288x1, b⟩] concatenates_S12288x1_S12288x1_S12288x2_d1) : (⟨S12288x1, .i32⟩ : BufTy).Contents (Elt F) → (⟨S12288x1, .i32⟩ : BufTy).Contents (Elt F) → (⟨S12288x2, .i32⟩ : BufTy).Contents (Elt F)),
    StableHlo.ternary main_v24 main_v39 main_v26 main_v40 ((fun x i u => Host.scatter scatter_S12289x12288_S12288x2_S12288_n_01_01_1 (fun _ b => b) x i u) : (⟨S12289x12288, .f32⟩ : BufTy).Contents (Elt F) → (⟨S12288x2, .i32⟩ : BufTy).Contents (Elt F) → (⟨S12288, .f32⟩ : BufTy).Contents (Elt F) → (⟨S12289x12288, .f32⟩ : BufTy).Contents (Elt F)),
    StableHlo.reshape main_v40 main_v41 rfl shapeCasts_S12289x12288_S12289x3x64x64 ]

-- sixty-three binds re-associated: one step of rewriting per statement
set_option maxRecDepth 2048 in
/-- @main is that straight line: the helpers unfolded at their calls, sequencing re-associated. -/
theorem main_eq (c : Dev nD) : main (F := F) c = seq ops := by
  simp only [main, fn_relu.body, fn_cumsum.body, fn_cumsum_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.reshape_bufs_sub .., StableHlo.nullary_bufs_sub .., StableHlo.unary_bufs_sub .., StableHlo.ternary_bufs_sub .., StableHlo.nullary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.reshape_bufs_sub ..⟩

/-! ## The result as a function of the argument -/

/-- A scalar constant laid over the image. -/
def splat3 (w : BitVec 32) : (⟨S3x64x64, .f32⟩ : BufTy).Contents (Elt F) :=
  broadcastInDim S3x64x64 ![] bcast_S_S3x64x64 (constant S_ .f32 w)

/-- Half the amount by which a pixel lies below 0.1. -/
def lo3 (x : (⟨S3x64x64, .f32⟩ : BufTy).Contents (Elt F)) : (⟨S3x64x64, .f32⟩ : BufTy).Contents (Elt F) :=
  mulf (maximumf (subf (splat3 0x3DCCCCCD#32) x) (splat3 0x00000000#32)) (splat3 0x3F000000#32)
/-- Half the amount by which it lies above 0.9. -/
def hi3 (x : (⟨S3x64x64, .f32⟩ : BufTy).Contents (Elt F)) : (⟨S3x64x64, .f32⟩ : BufTy).Contents (Elt F) :=
  mulf (maximumf (subf x (splat3 0x3F666666#32)) (splat3 0x00000000#32)) (splat3 0x3F000000#32)
/-- The centre: the pixel moved up by the one and down by the other. -/
def cen3 (x : (⟨S3x64x64, .f32⟩ : BufTy).Contents (Elt F)) : (⟨S3x64x64, .f32⟩ : BufTy).Contents (Elt F) := subf (addf x (lo3 x)) (hi3 x)
/-- The error magnitude: 0.1 less both. -/
def err3 (x : (⟨S3x64x64, .f32⟩ : BufTy).Contents (Elt F)) : (⟨S3x64x64, .f32⟩ : BufTy).Contents (Elt F) := subf (subf (splat3 0x3DCCCCCD#32) (lo3 x)) (hi3 x)

/-- The selection mask, flattened: where the error magnitude is not negative. -/
def mask1 (x : (⟨S3x64x64, .f32⟩ : BufTy).Contents (Elt F)) : (⟨S12288, .i1⟩ : BufTy).Contents (Elt F) :=
  shapeCast S12288 (cmpf .oge (err3 x) (splat3 0x00000000#32)) shapeCasts_S3x64x64_S12288

/-- The row numbers: the running count of the mask where it is set, N + 1 elsewhere. -/
def rows1 (x : (⟨S3x64x64, .f32⟩ : BufTy).Contents (Elt F)) : (⟨S12288, .i32⟩ : BufTy).Contents (Elt F) :=
  select (mask1 x)
    (Host.reduceWindow IntOp.addi ![12288] ![1] ![12287] ![0] (extui 32 (mask1 x) natLt_1_32)
      (broadcastInDim S_ ![] bcast_S_S_ (constantI S_ 32 0#32)) reduceWindows_S12288_S12288_w12288s1p12287_0 h_S_)
    (broadcastInDim S12288 ![] bcast_S_S12288 (id (constantI S_ 32 12289#32)))

/-- A 32-bit scalar constant laid over a vector of length N. -/
def splat1 (w : BitVec 32) : (⟨S12288, .i32⟩ : BufTy).Contents (Elt F) :=
  broadcastInDim S12288 ![] bcast_S_S12288 (constantI S_ 32 w)

/-- The pairs (row, column) the errors are written at, each entry with a negative word counted from the end. -/
def pairs (x : (⟨S3x64x64, .f32⟩ : BufTy).Contents (Elt F)) : (⟨S12288x2, .i32⟩ : BufTy).Contents (Elt F) :=
  concatenate S12288x2 1
    [⟨S12288x1, broadcastInDim S12288x1 ![0] bcast_S12288_S12288x1_0
        (select (cmpi .slt (rows1 x) (splat1 (F := F) 0#32)) (addi (rows1 x) (splat1 (F := F) 12289#32)) (rows1 x))⟩,
     ⟨S12288x1, broadcastInDim S12288x1 ![0] bcast_S12288_S12288x1_0
        (select (cmpi .slt (iotaInDim S12288 32 0) (splat1 (F := F) 0#32)) (addi (iotaInDim S12288 32 0) (splat1 (F := F) 12288#32))
          (iotaInDim S12288 32 0))⟩]
    concatenates_S12288x1_S12288x1_S12288x2_d1

/-- The matrix before the last reshape: zeros, row 0 set to the centre, the errors set at their pairs. -/
def refMat (x : (⟨S3x64x64, .f32⟩ : BufTy).Contents (Elt F)) : (⟨S12289x12288, .f32⟩ : BufTy).Contents (Elt F) :=
  Host.scatter scatter_S12289x12288_S12288x2_S12288_n_01_01_1 (fun _ b => b)
    (Host.scatter scatter_S12289x12288_S1_S12288_0_0_0_0 (fun _ b => b)
      (broadcastInDim S12289x12288 ![] bcast_S_S12289x12288 (constant S_ .f32 0x00000000#32))
      (broadcastInDim S1 ![] bcast_S_S1 (constantI S_ 32 0#32))
      (shapeCast S12288 (cen3 x) shapeCasts_S3x64x64_S12288))
    (pairs x)
    (shapeCast S12288 (err3 x) shapeCasts_S3x64x64_S12288)

/-- The reference's result. -/
def refOut (x : (⟨S3x64x64, .f32⟩ : BufTy).Contents (Elt F)) : (⟨S12289x3x64x64, .f32⟩ : BufTy).Contents (Elt F) :=
  shapeCast S12289x3x64x64 (refMat x) shapeCasts_S12289x12288_S12289x3x64x64

/-! ## The run -/

attribute [local irreducible] Host.scatter Host.reduceWindow concatenate in
set_option maxRecDepth 8192 in
set_option maxHeartbeats 1000000 in
/-- What the result buffer holds after the line, from any contents: each operation's result read at its own buffer,
    the windowed sum, the scatters and the concatenation never opened. -/
theorem out_eq (V : Valuation τ sig (Elt F)) :
    after ops V (main_v41 : DevRef τ sig) = refOut (V (main_arg0 : DevRef τ sig)) := by
  after_results_simp
  rfl

set_option maxRecDepth 8192 in
/-- No operation writes the argument. -/
theorem arg0_eq (V : Valuation τ sig (Elt F)) :
    after ops V (main_arg0 : DevRef τ sig) = V (main_arg0 : DevRef τ sig) := by
  after_results_simp

/-- From any memory with zero counters every weakly fair execution of the reference terminates, the result buffer at
    `refOut` of the argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v41).trans (out_eq _), (h c main_arg0).trans (arg0_eq _)⟩)
    (run_seq scopedRefs_eq scopedSems_eq defs main (fun _ => ops) main_eq (fun _ => ops_sub) m ρ)

end Cert.ReferenceIdeal.RefRun

end
-- ==== Proof.LibPrefixCount.lean ====
/-
  The running count of a 0/1 mask.

  jnp.cumsum of a vector of n words prints as one windowed sum: entry j adds, in order, the n words of the window that
  ends at position j of the vector padded with n - 1 zeros in front. When every word is 0 or 1 and n is below 2^31
  nothing wraps, so entry j is the NUMBER of ones among positions 0 … j: at most n, and at least 1 when position j itself
  holds a one. Read as a signed word such an entry lies in [1, n].
-/
import Idealize.ShloMosaic.PureOps
import Idealize.ShloMosaic.Lib.ValueIdx
import Idealize.ShloMosaic.Lib.StableHlo.Predicate

namespace Cert.PrefixCount

open Idealize.ShloMosaic Idealize.ShloMosaic.ValueIdx

variable {ι : Type}

/-- A sum of values that are each at most 1 is at most the number of summands. -/
theorem sum_le_length (g : ι → BitVec 32) (hg : ∀ q, (g q).toNat ≤ 1) :
    ∀ l : List ι, (l.map fun q => (g q).toNat).sum ≤ l.length
  | [] => Nat.le_refl 0
  | q :: l => by
    have := sum_le_length g hg l
    have := hg q
    simp only [List.map_cons, List.sum_cons, List.length_cons]
    omega

/-- Each summand is at most the sum. -/
theorem le_sum_of_mem (g : ι → BitVec 32) (q0 : ι) :
    ∀ l : List ι, q0 ∈ l → (g q0).toNat ≤ (l.map fun q => (g q).toNat).sum
  | [], h => absurd h List.not_mem_nil
  | q :: l, h => by
    simp only [List.map_cons, List.sum_cons]
    rcases List.mem_cons.mp h with rfl | h'
    · omega
    · have := le_sum_of_mem g q0 l h'
      omega

/-- A left fold of word addition over words that are each 0 or 1, from a start that leaves room for all of them, does
    not wrap: its value is the start's plus the sum of the words' values. -/
theorem toNat_foldl_addi (g : ι → BitVec 32) (hg : ∀ q, (g q).toNat ≤ 1) :
    ∀ (l : List ι) (a : BitVec 32), a.toNat + l.length < 2 ^ 32 →
      (l.foldl (fun r q => IntOp.addi r (g q)) a).toNat = a.toNat + (l.map fun q => (g q).toNat).sum
  | [], a, _ => by simp
  | q :: l, a, h => by
    have hq := hg q
    simp only [List.length_cons] at h
    have hadd : (IntOp.addi a (g q)).toNat = a.toNat + (g q).toNat := by
      show (a + g q).toNat = _
      rw [BitVec.toNat_add]
      exact Nat.mod_eq_of_lt (by omega)
    rw [List.foldl_cons, toNat_foldl_addi g hg l _ (by rw [hadd]; omega), hadd, List.map_cons, List.sum_cons]
    omega

/-- A vector of length n has n elements. -/
theorem numel_vec (n : Nat) : (⟨1, ![n]⟩ : Shape).numel = n := by
  simp [Shape.numel, Shape.size]

/-- THE RUNNING COUNT AT A POSITION HOLDING A ONE: the windowed sum that is jnp.cumsum (window n, stride 1, n - 1 = p zeros
    in front, none behind) of a vector of 0/1 words, read signed at a position j whose own word is 1, lies in [1, n]. -/
theorem cumsum_mem {n p : Nat} (hn : n < 2 ^ 31) (hp : p + 1 = n)
    (x : (⟨1, ![n]⟩ : Shape).Idx → BitVec 32) (hx : ∀ i, (x i).toNat ≤ 1)
    (init : (⟨0, ![]⟩ : Shape).Idx → BitVec 32) (hinit : ∀ k, init k = 0#32)
    (h : (⟨1, ![n]⟩ : Shape).ReduceWindows (![n] : Fin 1 → Nat) ![1] ![p] ![0] ⟨1, ![n]⟩)
    (hu : 0 < (⟨0, ![]⟩ : Shape).numel) (j : Fin n) (hj : x (ix1 j) = 1#32) :
    1 ≤ (Host.reduceWindow IntOp.addi ![n] ![1] ![p] ![0] x init h hu (ix1 j)).toInt
      ∧ (Host.reduceWindow IntOp.addi ![n] ![1] ![p] ![0] x init h hu (ix1 j)).toInt ≤ n := by
  have hv : init (Shape.Idx.first hu) = 0#32 := hinit _
  -- the word the fold adds at window position q: the vector's where the position is inside it, the initial zero in the padding
  let g : Fin (⟨1, ![n]⟩ : Shape).numel → BitVec 32 := fun q =>
    if hin : ∀ a : Fin 1, (![p] : Fin 1 → Nat) a ≤ ((ix1 j : (⟨1, ![n]⟩ : Shape).Idx) (a.cast h.1.symm)).val * (![1] : Fin 1 → Nat) a
          + ((⟨1, ![n]⟩ : Shape).rowMajor.symm q a).val
        ∧ ((ix1 j : (⟨1, ![n]⟩ : Shape).Idx) (a.cast h.1.symm)).val * (![1] : Fin 1 → Nat) a
          + ((⟨1, ![n]⟩ : Shape).rowMajor.symm q a).val - (![p] : Fin 1 → Nat) a < (⟨1, ![n]⟩ : Shape).size a
    then x (fun a => ⟨((ix1 j : (⟨1, ![n]⟩ : Shape).Idx) (a.cast h.1.symm)).val * (![1] : Fin 1 → Nat) a
          + ((⟨1, ![n]⟩ : Shape).rowMajor.symm q a).val - (![p] : Fin 1 → Nat) a, (hin a).2⟩)
    else init (Shape.Idx.first hu)
  have hfold : Host.reduceWindow IntOp.addi ![n] ![1] ![p] ![0] x init h hu (ix1 j)
      = (List.finRange (⟨1, ![n]⟩ : Shape).numel).foldl (fun r q => IntOp.addi r (g q)) (init (Shape.Idx.first hu)) := rfl
  have hg : ∀ q, (g q).toNat ≤ 1 := by
    intro q
    dsimp only [g]
    split
    · exact hx _
    · rw [hv]; decide
  have hlen : (List.finRange (⟨1, ![n]⟩ : Shape).numel).length = n := by rw [List.length_finRange, numel_vec]
  have hval := toNat_foldl_addi g hg (List.finRange (⟨1, ![n]⟩ : Shape).numel) (init (Shape.Idx.first hu))
    (by rw [hv, hlen]; show 0 + n < 2 ^ 32; omega)
  rw [← hfold, hv] at hval
  have hup := sum_le_length g hg (List.finRange (⟨1, ![n]⟩ : Shape).numel)
  rw [hlen] at hup
  -- the window's last position reads the vector at j itself
  have hpn : p < n := by omega
  let q0 : Fin (⟨1, ![n]⟩ : Shape).numel := (⟨1, ![n]⟩ : Shape).rowMajor (ix1 ⟨p, hpn⟩)
  have hq0 : g q0 = 1#32 := by
    dsimp only [g, q0]
    rw [Equiv.symm_apply_apply]
    have hin : ∀ a : Fin 1, (![p] : Fin 1 → Nat) a ≤ ((ix1 j : (⟨1, ![n]⟩ : Shape).Idx) (a.cast h.1.symm)).val * (![1] : Fin 1 → Nat) a
          + ((ix1 (⟨p, hpn⟩ : Fin n) : (⟨1, ![n]⟩ : Shape).Idx) a).val
        ∧ ((ix1 j : (⟨1, ![n]⟩ : Shape).Idx) (a.cast h.1.symm)).val * (![1] : Fin 1 → Nat) a
          + ((ix1 (⟨p, hpn⟩ : Fin n) : (⟨1, ![n]⟩ : Shape).Idx) a).val - (![p] : Fin 1 → Nat) a < (⟨1, ![n]⟩ : Shape).size a := by
      intro a
      match a with
      | ⟨0, _⟩ =>
        show p ≤ j.val * 1 + p ∧ j.val * 1 + p - p < n
        have := j.isLt
        omega
    rw [dif_pos hin, ← hj]
    congr 1
    funext a
    match a with
    | ⟨0, _⟩ =>
      refine Fin.ext ?_
      show j.val * 1 + p - p = j.val
      omega
  have hlow := le_sum_of_mem g q0 (List.finRange (⟨1, ![n]⟩ : Shape).numel) (List.mem_finRange q0)
  rw [hq0] at hlow
  have h1 : (1#32 : BitVec 32).toNat = 1 := rfl
  rw [h1] at hlow
  have h0 : (0#32 : BitVec 32).toNat = 0 := rfl
  rw [h0, Nat.zero_add] at hval
  have hI := StableHlo.Predicate.toInt_eq_toNat_of_lt
    (a := Host.reduceWindow IntOp.addi ![n] ![1] ![p] ![0] x init h hu (ix1 j)) (by rw [hval]; omega)
  rw [hI, hval]
  constructor
  · exact_mod_cast hlow
  · exact_mod_cast hup

end Cert.PrefixCount
-- ==== Proof.Bridge.lean ====
/-
  The two results are one array.

  Both programs compute the centre, the error magnitude and the row numbers of the image by the same operations; the one
  difference before the matrix is that the reference compares the error magnitude with zero and then flattens the mask,
  while the kernel's host code flattens first and compares after, which is the same mask entry by entry. A row number is
  the running count of the mask where the mask is set, so it lies in [1, N] there, and it is N + 1 elsewhere: always at
  least 1. So the reference's two assignments build the zonotope matrix of those three vectors, which is what the
  kernel's compares and selects build; both results are its reshape.
-/
import proofs.«117034_j26998164423199_1_alg».proof.Proof.KernelValue
import proofs.«117034_j26998164423199_1_alg».proof.Proof.RefRun
import proofs.«117034_j26998164423199_1_alg».proof.Proof.Zono
import proofs.«117034_j26998164423199_1_alg».proof.Proof.LibPrefixCount

noncomputable section

namespace Cert.Bridge

open Idealize.ShloMosaic Idealize.ShloMosaic.ValueIdx

/-- The mask taken before flattening is the mask taken after. -/
theorem mask_eq (x : (⟨Cert.ReferenceIdeal.S3x64x64, .f32⟩ : BufTy).Contents (Elt Ideal)) :
    Cert.ReferenceIdeal.RefRun.mask1 (F := Ideal) x = Cert.KernelIdeal.KValue.mask1 (F := Ideal) x := by
  funext i
  rfl

/-- So the two programs' row numbers are the same vector. -/
theorem rows_eq (x : (⟨Cert.ReferenceIdeal.S3x64x64, .f32⟩ : BufTy).Contents (Elt Ideal)) :
    Cert.ReferenceIdeal.RefRun.rows1 (F := Ideal) x = Cert.KernelIdeal.KValue.rows1 (F := Ideal) x := by
  unfold Cert.ReferenceIdeal.RefRun.rows1 Cert.KernelIdeal.KValue.rows1
  rw [mask_eq]

/-- Every row number is at least 1: a running count at a set position of the mask, or N + 1. -/
theorem rows_pos (x : (⟨Cert.ReferenceIdeal.S3x64x64, .f32⟩ : BufTy).Contents (Elt Ideal)) (k : Cert.KernelIdeal.S12288.Idx) :
    1 ≤ (Cert.KernelIdeal.KValue.rows1 (F := Ideal) x k).toInt := by
  obtain ⟨j, rfl⟩ : ∃ j : Fin 12288, k = ix1 j := ⟨k 0, eq_ix1 k⟩
  unfold Cert.KernelIdeal.KValue.rows1
  rw [select_apply]
  by_cases hm : Cert.KernelIdeal.KValue.mask1 (F := Ideal) x (ix1 j) = 1#1
  · rw [hm, select_one]
    refine (Cert.PrefixCount.cumsum_mem (n := 12288) (p := 12287) (by norm_num) rfl _ (fun i => ?_) _ (fun _ => rfl) _ _ j ?_).1
    · show ((Cert.KernelIdeal.KValue.mask1 (F := Ideal) x i).setWidth 32).toNat ≤ 1
      rw [StableHlo.Predicate.toNat_setWidth_bit]
      split <;> omega
    · show (Cert.KernelIdeal.KValue.mask1 (F := Ideal) x (ix1 j)).setWidth 32 = 1#32
      rw [hm]
      rfl
  · rw [eq_zero_of_ne_one hm, select_zero]
    show 1 ≤ (12289#32 : BitVec 32).toInt
    decide

/-- THE REFERENCE'S MATRIX is the zonotope matrix of the centre, the error magnitude and the row numbers. -/
theorem refMat_eq (x : (⟨Cert.ReferenceIdeal.S3x64x64, .f32⟩ : BufTy).Contents (Elt Ideal)) :
    Cert.ReferenceIdeal.RefRun.refMat (F := Ideal) x
      = Cert.Zono.zono (R := 12289) (Cert.KernelIdeal.KValue.cen1 (F := Ideal) x) (Cert.KernelIdeal.KValue.err1 (F := Ideal) x)
          (Scalar.ofBits (F := Ideal) .f32 0x00000000#32) (Cert.KernelIdeal.KValue.rows1 (F := Ideal) x) := by
  unfold Cert.ReferenceIdeal.RefRun.refMat Cert.ReferenceIdeal.RefRun.pairs
  rw [rows_eq]
  exact Cert.Zono.assignments_eq_zono (R := 12289) (C := 12288) (by norm_num) (by norm_num)
    Cert.ReferenceIdeal.Gen.scatter_S12289x12288_S1_S12288_0_0_0_0_wf
    Cert.ReferenceIdeal.Gen.scatter_S12289x12288_S12288x2_S12288_n_01_01_1_wf
    Cert.ReferenceIdeal.Gen.bcast_S12288_S12288x1_0 Cert.ReferenceIdeal.Gen.concatenates_S12288x1_S12288x1_S12288x2_d1
    _ _ _ _ (rows_pos x) _ (fun _ => rfl) _ (fun _ => rfl) _ _ _ _ (fun _ => rfl) (fun _ => rfl)

/-- THE TWO RESULTS ARE EQUAL, as functions of the image. -/
theorem out_eq (x : (⟨Cert.ReferenceIdeal.S3x64x64, .f32⟩ : BufTy).Contents (Elt Ideal)) :
    Cert.ReferenceIdeal.RefRun.refOut (F := Ideal) x = Cert.KernelIdeal.KValue.kOut (F := Ideal) x := by
  unfold Cert.ReferenceIdeal.RefRun.refOut Cert.KernelIdeal.KValue.kOut
  rw [refMat_eq]

end Cert.Bridge

end
-- ==== Proof.lean ====
/- The proof of `Cert.Claim`: a Pallas kernel that writes a zonotope matrix by compares and selects, block of rows by
   block of rows, against a reference that builds it from zeros by two assignments.

   From an image x of N = 3·64·64 pixels both programs compute a centre, an error magnitude, and for every pixel k a row
   number: the running count of the pixels with non-negative error magnitude up to and including k if k is one of them,
   N + 1 otherwise. The result is the [N + 1, N] matrix with the centre on row 0, error(k) at (row(k), k) and zeros
   elsewhere, reshaped to [N + 1, 3, 64, 64].
     Proof/LibPrefixCount.lean the running count at a set position lies in [1, N];
     Proof/LibScatterSet.lean  a row assignment and a cell assignment read at an entry;
     Proof/Zono.lean          the matrix stated once; the compare-and-select form and the two-assignment form both are it;
     Proof/RefRun.lean        the reference's run: its result as a function of the image;
     Proof/KernelValue.lean   the kernel's run: block, cover, the host lines before and after the region;
     Proof/Bridge.lean        the two results are one function of the image.
   The frames of the two kernel programs are their frame runs; the reference's frame is its run with the result dropped;
   the idealization rewrote nothing, so `preserves` is trivial. -/
import proofs.«117034_j26998164423199_1_alg».proof.Defs
import proofs.«117034_j26998164423199_1_alg».proof.Proof.Gen.Kernel
import proofs.«117034_j26998164423199_1_alg».proof.Proof.Gen.KernelIdeal
import proofs.«117034_j26998164423199_1_alg».proof.Proof.Gen.ReferenceIdeal
import proofs.«117034_j26998164423199_1_alg».proof.Proof.Gen.Pre_finite_inputs
import proofs.«117034_j26998164423199_1_alg».proof.Proof.FrameKernel
import proofs.«117034_j26998164423199_1_alg».proof.Proof.FrameKernelIdeal
import proofs.«117034_j26998164423199_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both programs end with their result at one function of the image, from memories that agree on it. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.Bridge.out_eq _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
